-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S1048576 : Shape := ⟨1, ![1048576]⟩
abbrev S64x256 : Shape := ⟨2, ![64, 256]⟩
abbrev S256x128 : Shape := ⟨2, ![256, 128]⟩
abbrev S128x64 : Shape := ⟨2, ![128, 64]⟩
abbrev S64x16 : Shape := ⟨2, ![64, 16]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S128x64 .f32) (main_arg5 : FVec F S64x16 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  main_v28

def fn {F : FTy → Type} [FloatOps F] (main_arg0 : FVec F S131072x64 .f32) (main_arg1 : FVec F S1048576 .f32) (main_arg2 : FVec F S64x256 .f32) (main_arg3 : FVec F S256x128 .f32) (main_arg4 : FVec F S128x64 .f32) (main_arg5 : FVec F S64x16 .f32) (main_arg6 : IVec S1048576 32) (main_arg7 : IVec S1048576 32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S131072x64 : Shape := ⟨2, ![131072, 64]⟩
abbrev S1048576 : Shape := ⟨1, ![1048576]⟩
abbrev S64x256 : Shape := ⟨2, ![64, 256]⟩
abbrev S256x128 : Shape := ⟨2, ![256, 128]⟩
abbrev S128x64 : Shape := ⟨2, ![128, 64]⟩
abbrev S64x16 : Shape := ⟨2, ![64, 16]⟩
abbrev S_ : Shape := ⟨0, ![]⟩
abbrev S131072 : Shape := ⟨1, ![131072]⟩
abbrev S1048576x1 : Shape := ⟨2, ![1048576, 1]⟩
abbrev S131072x1 : Shape := ⟨2, ![131072, 1]⟩
abbrev S1048576x64 : Shape := ⟨2, ![1048576, 64]⟩
abbrev S131072x256 : Shape := ⟨2, ![131072, 256]⟩
abbrev S4096x64 : Shape := ⟨2, ![4096, 64]⟩
abbrev S4096x256 : Shape := ⟨2, ![4096, 256]⟩
abbrev S131072x128 : Shape := ⟨2, ![131072, 128]⟩
abbrev S4096x128 : Shape := ⟨2, ![4096, 128]⟩
abbrev S1048576x128 : Shape := ⟨2, ![1048576, 128]⟩
abbrev S1024x16 : Shape := ⟨2, ![1024, 16]⟩
abbrev S16384x128 : Shape := ⟨2, ![16384, 128]⟩
abbrev S128x16 : Shape := ⟨2, ![128, 16]⟩
abbrev S128x128x128 : Shape := ⟨3, ![128, 128, 128]⟩
abbrev S128x128 : Shape := ⟨2, ![128, 128]⟩

abbrev nBuf : Space → Nat
  | .hbm => 86
  | .vmem => 16
  | .smem => 0
  | _ => 0

abbrev bufTy : (tb : Table) → Fin (tcTables nBuf tb) → BufTy
  | .hbm, ⟨0, _⟩ => ⟨S131072x64, .f32⟩
  | .hbm, ⟨1, _⟩ => ⟨S1048576, .f32⟩
  | .hbm, ⟨2, _⟩ => ⟨S64x256, .f32⟩
  | .hbm, ⟨3, _⟩ => ⟨S256x128, .f32⟩
  | .hbm, ⟨4, _⟩ => ⟨S128x64, .f32⟩
  | .hbm, ⟨5, _⟩ => ⟨S64x16, .f32⟩
  | .hbm, ⟨6, _⟩ => ⟨S1048576, .i32⟩
  | .hbm, ⟨7, _⟩ => ⟨S1048576, .i32⟩
  | .hbm, ⟨8, _⟩ => ⟨S_, .f32⟩
  | .hbm, ⟨9, _⟩ => ⟨S1048576, .f32⟩
  | .hbm, ⟨10, _⟩ => ⟨S_, .f32⟩
  | .hbm, ⟨11, _⟩ => ⟨S131072, .f32⟩
  | .hbm, ⟨12, _⟩ => ⟨S1048576x1, .i32⟩
  | .hbm, ⟨13, _⟩ => ⟨S131072, .f32⟩
  | .hbm, ⟨14, _⟩ => ⟨S_, .f32⟩
  | .hbm, ⟨15, _⟩ => ⟨S_, .f32⟩
  | .hbm, ⟨16, _⟩ => ⟨S131072, .f32⟩
  | .hbm, ⟨17, _⟩ => ⟨S131072, .f32⟩
  | .hbm, ⟨18, _⟩ => ⟨S_, .f32⟩
  | .hbm, ⟨19, _⟩ => ⟨S131072, .f32⟩
  | .hbm, ⟨20, _⟩ => ⟨S1048576x1, .i32⟩
  | .hbm, ⟨21, _⟩ => ⟨S131072, .f32⟩
  | .hbm, ⟨22, _⟩ => ⟨S_, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072x1, .f32⟩
  | .hbm, ⟨33, _⟩ => ⟨S131072x64, .f32⟩
  | .hbm, ⟨34, _⟩ => ⟨S131072x64, .f32⟩
  | .hbm, ⟨35, _⟩ => ⟨S_, .i32⟩
  | .hbm, ⟨36, _⟩ => ⟨S1048576, .i32⟩
  | .hbm, ⟨37, _⟩ => ⟨S1048576, .i1⟩
  | .hbm, ⟨38, _⟩ => ⟨S_, .i32⟩
  | .hbm, ⟨39, _⟩ => ⟨S1048576, .i32⟩
  | .hbm, ⟨40, _⟩ => ⟨S1048576, .i32⟩
  | .hbm, ⟨41, _⟩ => ⟨S1048576, .i32⟩
  | .hbm, ⟨42, _⟩ => ⟨S1048576x1, .i32⟩
  | .hbm, ⟨43, _⟩ => ⟨S1048576x64, .f32⟩
  | .hbm, ⟨44, _⟩ => ⟨S1048576x1, .f32⟩
  | .hbm, ⟨45, _⟩ => ⟨S1048576x64, .f32⟩
  | .hbm, ⟨46, _⟩ => ⟨S1048576x64, .f32⟩
  | .hbm, ⟨47, _⟩ => ⟨S_, .f32⟩
  | .hbm, ⟨48, _⟩ => ⟨S131072x64, .f32⟩
  | .hbm, ⟨49, _⟩ => ⟨S1048576x1, .i32⟩
  | .hbm, ⟨50, _⟩ => ⟨S131072x64, .f32⟩
  | .hbm, ⟨51, _⟩ => ⟨S131072x1, .f32⟩
  | .hbm, ⟨52, _⟩ => ⟨S131072x64, .f32⟩
  | .hbm, ⟨53, _⟩ => ⟨S131072x64, .f32⟩
  | .hbm, ⟨54, _⟩ => ⟨S131072x256, .f32⟩
  | .hbm, ⟨55, _⟩ => ⟨S131072x1, .f32⟩
  | .hbm, ⟨56, _⟩ => ⟨S131072x256, .f32⟩
  | .hbm, ⟨57, _⟩ => ⟨S131072x256, .f32⟩
  | .hbm, ⟨58, _⟩ => ⟨S131072x128, .f32⟩
  | .hbm, ⟨59, _⟩ => ⟨S_, .i32⟩
  | .hbm, ⟨60, _⟩ => ⟨S1048576, .i32⟩
  | .hbm, ⟨61, _⟩ => ⟨S1048576, .i1⟩
  | .hbm, ⟨62, _⟩ => ⟨S_, .i32⟩
  | .hbm, ⟨63, _⟩ => ⟨S1048576, .i32⟩
  | .hbm, ⟨64, _⟩ => ⟨S1048576, .i32⟩
  | .hbm, ⟨65, _⟩ => ⟨S1048576, .i32⟩
  | .hbm, ⟨66, _⟩ => ⟨S1048576x1, .i32⟩
  | .hbm, ⟨67, _⟩ => ⟨S1048576x128, .f32⟩
  | .hbm, ⟨68, _⟩ => ⟨S1048576x1, .f32⟩
  | .hbm, ⟨69, _⟩ => ⟨S1048576x128, .f32⟩
  | .hbm, ⟨70, _⟩ => ⟨S1048576x128, .f32⟩
  | .hbm, ⟨71, _⟩ => ⟨S_, .f32⟩
  | .hbm, ⟨72, _⟩ => ⟨S131072x128, .f32⟩
  | .hbm, ⟨73, _⟩ => ⟨S1048576x1, .i32⟩
  | .hbm, ⟨74, _⟩ => ⟨S131072x128, .f32⟩
  | .hbm, ⟨75, _⟩ => ⟨S131072x1, .f32⟩
  | .hbm, ⟨76, _⟩ => ⟨S131072x128, .f32⟩
  | .hbm, ⟨77, _⟩ => ⟨S131072x128, .f32⟩
  | .hbm, ⟨78, _⟩ => ⟨S_, .f32⟩
  | .hbm, ⟨79, _⟩ => ⟨S131072x128, .f32⟩
  | .hbm, ⟨80, _⟩ => ⟨S131072x128, .i1⟩
  | .hbm, ⟨81, _⟩ => ⟨S_, .f32⟩
  | .hbm, ⟨82, _⟩ => ⟨S131072x128, .f32⟩
  | .hbm, ⟨83, _⟩ => ⟨S131072x128, .f32⟩
  | .hbm, ⟨84, _⟩ => ⟨S131072x128, .f32⟩
  | .hbm, ⟨85, _⟩ => ⟨S1024x16, .f32⟩
  | .local _ .vmem, ⟨0, _⟩ => ⟨S4096x64, .f32⟩
  | .local _ .vmem, ⟨1, _⟩ => ⟨S4096x64, .f32⟩
  | .local _ .vmem, ⟨2, _⟩ => ⟨S64x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S256x128, .f32⟩
  | .local _ .vmem, ⟨8, _⟩ => ⟨S4096x128, .f32⟩
  | .local _ .vmem, ⟨9, _⟩ => ⟨S4096x128, .f32⟩
  | .local _ .vmem, ⟨10, _⟩ => ⟨S16384x128, .f32⟩
  | .local _ .vmem, ⟨11, _⟩ => ⟨S16384x128, .f32⟩
  | .local _ .vmem, ⟨12, _⟩ => ⟨S128x64, .f32⟩
  | .local _ .vmem, ⟨13, _⟩ => ⟨S64x16, .f32⟩
  | .local _ .vmem, ⟨14, _⟩ => ⟨S128x16, .f32⟩
  | .local _ .vmem, ⟨15, _⟩ => ⟨S128x16, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  bcast_S1048576x1_S1048576x64_0_1 : S1048576x1.BroadcastsInDim S1048576x64 (![0, 1] : Fin 2 → Fin S1048576x64.rank)
  bcast_S_S131072x64 : S_.BroadcastsInDim S131072x64 (![] : Fin 0 → Fin S131072x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S4096x256_S4096x256_0_0 : ∀ a, (![0, 0] : Fin 2 → Nat) a + S4096x256.size a ≤ S4096x256.size a
  h_S4096x256 : 0 < S4096x256.numel
  bcast_S131072x1_S131072x256_0_1 : S131072x1.BroadcastsInDim S131072x256 (![0, 1] : Fin 2 → Fin S131072x256.rank)
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  inb_S4096x128_S4096x128_0_0 : ∀ a, (![0, 0] : Fin 2 → Nat) a + S4096x128.size a ≤ S4096x128.size a
  h_S4096x128 : 0 < S4096x128.numel
  bcast_S1048576x1_S1048576x128_0_1 : S1048576x1.BroadcastsInDim S1048576x128 (![0, 1] : Fin 2 → Fin S1048576x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S128x128x128 : S16384x128.ShapeCasts S128x128x128
  reduces_S128x128x128_S128x128 : S128x128x128.Reduces [1] S128x128
  inb_S128x64_S128x64_0_0 : ∀ a, (![0, 0] : Fin 2 → Nat) a + S128x64.size a ≤ S128x64.size a
  h_S128x64 : 0 < S128x64.numel
  inb_S64x16_S64x16_0_0 : ∀ a, (![0, 0] : Fin 2 → Nat) a + S64x16.size a ≤ S64x16.size a
  h_S64x16 : 0 < S64x16.numel
  inb_S128x16_S128x16_0_0 : ∀ a, (![0, 0] : Fin 2 → Nat) a + S128x16.size a ≤ S128x16.size a
  h_S128x16 : 0 < S128x16.numel
  scatter_S131072_S1048576x1_S1048576_n_0_0_1_wf : ScatterDims.WF S131072 S1048576x1 S1048576 [] [0] [0] 1
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S4096x64_S64x256_S4096x256_1_0_0_1_n_n_wf : DotDims.WF S4096x64 S64x256 S4096x256 [1] [0] [0] [1] [] []
  dot_S4096x256_S256x128_S4096x128_1_0_0_1_n_n_wf : DotDims.WF S4096x256 S256x128 S4096x128 [1] [0] [0] [1] [] []
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1
  dot_S128x128_S128x64_S128x64_1_0_0_1_n_n_wf : DotDims.WF S128x128 S128x64 S128x64 [1] [0] [0] [1] [] []
  dot_S128x64_S64x16_S128x16_1_0_0_1_n_n_wf : DotDims.WF S128x64 S64x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S131072x256.size a
  hwx0_2 : ∀ i : grid0.Coords, EltTy.bits .f32 = 32 ∨ (Rect.block (s := S131072x256) S4096x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .f32 = 32 ∨ (Rect.block (s := S131072x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S131072x128.size a
  hwx1_2 : ∀ i : grid1.Coords, EltTy.bits .f32 = 32 ∨ (Rect.block (s := S131072x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x128.size a ≤ S131072x128.size a
  hwx2_0 : ∀ i : grid2.Coords, EltTy.bits .f32 = 32 ∨ (Rect.block (s := S131072x128) S16384x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S1024x16.size a
  hwx2_3 : ∀ i : grid2.Coords, EltTy.bits .f32 = 32 ∨ (Rect.block (s := S1024x16) S128x16.size (cc2_transform_3 i) (hinb2_3 i)).WholeWords (EltTy.packing .f32)

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf

abbrev win0_0 : Pipeline.Window sig grid0 :=
  Pipeline.Window.ofSpec (Memref.whole main_v31) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S16384x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S128x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S131072x64 : Shape := ⟨2, ![131072, 64]⟩
abbrev S1048576 : Shape := ⟨1, ![1048576]⟩
abbrev S64x256 : Shape := ⟨2, ![64, 256]⟩
abbrev S256x128 : Shape := ⟨2, ![256, 128]⟩
abbrev S128x64 : Shape := ⟨2, ![128, 64]⟩
abbrev S64x16 : Shape := ⟨2, ![64, 16]⟩
abbrev S_ : Shape := ⟨0, ![]⟩
abbrev S131072 : Shape := ⟨1, ![131072]⟩
abbrev S1048576x1 : Shape := ⟨2, ![1048576, 1]⟩
abbrev S131072x1 : Shape := ⟨2, ![131072, 1]⟩
abbrev S1048576x64 : Shape := ⟨2, ![1048576, 64]⟩
abbrev S131072x256 : Shape := ⟨2, ![131072, 256]⟩
abbrev S131072x128 : Shape := ⟨2, ![131072, 128]⟩
abbrev S1048576x128 : Shape := ⟨2, ![1048576, 128]⟩
abbrev S1024x128 : Shape := ⟨2, ![1024, 128]⟩
abbrev S1024x64 : Shape := ⟨2, ![1024, 64]⟩
abbrev S1024x16 : Shape := ⟨2, ![1024, 16]⟩

abbrev nBuf : Space → Nat
  | .hbm => 144
  | .vmem => 0
  | .smem => 0
  | _ => 0

abbrev hbmTy0_0 (i : Nat) : BufTy := match i % 128 with
  | 0 => ⟨S131072x64, .f32⟩
  | 1 => ⟨S1048576, .f32⟩
  | 2 => ⟨S64x256, .f32⟩
  | 3 => ⟨S256x128, .f32⟩
  | 4 => ⟨S128x64, .f32⟩
  | 5 => ⟨S64x16, .f32⟩
  | 6 => ⟨S1048576, .i32⟩
  | 7 => ⟨S1048576, .i32⟩
  | 8 => ⟨S_, .f32⟩
  | 9 => ⟨S1048576, .f32⟩
  | 10 => ⟨S_, .f32⟩
  | 11 => ⟨S131072, .f32⟩
  | 12 => ⟨S1048576x1, .i32⟩
  | 13 => ⟨S131072, .f32⟩
  | 14 => ⟨S_, .f32⟩
  | 15 => ⟨S_, .f32⟩
  | 16 => ⟨S131072, .f32⟩
  | 17 => ⟨S131072, .f32⟩
  | 18 => ⟨S_, .f32⟩
  | 19 => ⟨S131072, .f32⟩
  | 20 => ⟨S1048576x1, .i32⟩
  | 21 => ⟨S131072, .f32⟩
  | 22 => ⟨S_, .f32⟩
  | 23 => ⟨S_, .f32⟩
  | 24 => ⟨S131072, .f32⟩
  | 25 => ⟨S131072, .f32⟩
  | 26 => ⟨S_, .f32⟩
  | 27 => ⟨S131072, .f32⟩
  | 28 => ⟨S131072, .f32⟩
  | 29 => ⟨S131072x1, .f32⟩
  | 30 => ⟨S131072x64, .f32⟩
  | 31 => ⟨S131072x64, .f32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576x64, .f32⟩
  | 41 => ⟨S1048576x1, .f32⟩
  | 42 => ⟨S1048576x64, .f32⟩
  | 43 => ⟨S1048576x64, .f32⟩
  | 44 => ⟨S_, .f32⟩
  | 45 => ⟨S131072x64, .f32⟩
  | 46 => ⟨S1048576x1, .i32⟩
  | 47 => ⟨S131072x64, .f32⟩
  | 48 => ⟨S_, .f32⟩
  | 49 => ⟨S131072, .f32⟩
  | 50 => ⟨S131072, .f32⟩
  | 51 => ⟨S131072x1, .f32⟩
  | 52 => ⟨S131072x64, .f32⟩
  | 53 => ⟨S131072x64, .f32⟩
  | 54 => ⟨S131072x256, .f32⟩
  | 55 => ⟨S_, .f32⟩
  | 56 => ⟨S131072x256, .f32⟩
  | 57 => ⟨S131072x256, .i1⟩
  | 58 => ⟨S_, .f32⟩
  | 59 => ⟨S131072x256, .f32⟩
  | 60 => ⟨S131072x256, .f32⟩
  | 61 => ⟨S131072x256, .f32⟩
  | 62 => ⟨S_, .f32⟩
  | 63 => ⟨S1048576, .f32⟩
  | 64 => ⟨S_, .f32⟩
  | 65 => ⟨S131072, .f32⟩
  | 66 => ⟨S1048576x1, .i32⟩
  | 67 => ⟨S131072, .f32⟩
  | 68 => ⟨S_, .f32⟩
  | 69 => ⟨S_, .f32⟩
  | 70 => ⟨S131072, .f32⟩
  | 71 => ⟨S131072, .f32⟩
  | 72 => ⟨S_, .f32⟩
  | 73 => ⟨S131072, .f32⟩
  | 74 => ⟨S1048576x1, .i32⟩
  | 75 => ⟨S131072, .f32⟩
  | 76 => ⟨S_, .f32⟩
  | 77 => ⟨S_, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072x1, .f32⟩
  | 84 => ⟨S131072x256, .f32⟩
  | 85 => ⟨S131072x256, .f32⟩
  | 86 => ⟨S131072x128, .f32⟩
  | 87 => ⟨S_, .i32⟩
  | 88 => ⟨S1048576, .i32⟩
  | 89 => ⟨S1048576, .i1⟩
  | 90 => ⟨S_, .i32⟩
  | 91 => ⟨S1048576, .i32⟩
  | 92 => ⟨S1048576, .i32⟩
  | 93 => ⟨S1048576, .i32⟩
  | 94 => ⟨S1048576x1, .i32⟩
  | 95 => ⟨S1048576x128, .f32⟩
  | 96 => ⟨S1048576x1, .f32⟩
  | 97 => ⟨S1048576x128, .f32⟩
  | 98 => ⟨S1048576x128, .f32⟩
  | 99 => ⟨S_, .f32⟩
  | 100 => ⟨S131072x128, .f32⟩
  | 101 => ⟨S1048576x1, .i32⟩
  | 102 => ⟨S131072x128, .f32⟩
  | 103 => ⟨S_, .f32⟩
  | 104 => ⟨S131072, .f32⟩
  | 105 => ⟨S131072, .f32⟩
  | 106 => ⟨S131072x1, .f32⟩
  | 107 => ⟨S131072x128, .f32⟩
  | 108 => ⟨S131072x128, .f32⟩
  | 109 => ⟨S_, .f32⟩
  | 110 => ⟨S131072x128, .f32⟩
  | 111 => ⟨S131072x128, .i1⟩
  | 112 => ⟨S_, .f32⟩
  | 113 => ⟨S131072x128, .f32⟩
  | 114 => ⟨S131072x128, .f32⟩
  | 115 => ⟨S131072x128, .f32⟩
  | 116 => ⟨S131072, .i32⟩
  | 117 => ⟨S_, .i32⟩
  | 118 => ⟨S_, .i32⟩
  | 119 => ⟨S131072, .i32⟩
  | 120 => ⟨S131072, .i32⟩
  | 121 => ⟨S131072, .i32⟩
  | 122 => ⟨S_, .i32⟩
  | 123 => ⟨S131072, .i32⟩
  | 124 => ⟨S131072, .i1⟩
  | 125 => ⟨S131072, .i32⟩
  | 126 => ⟨S131072, .i32⟩
  | 127 => ⟨S_, .i32⟩
  | _ => ⟨S131072x64, .f32⟩

abbrev hbmTy0_1 (i : Nat) : BufTy := match i % 128 with
  | 0 => ⟨S131072, .i32⟩
  | 1 => ⟨S131072, .i1⟩
  | 2 => ⟨S131072, .i1⟩
  | 3 => ⟨S_, .i32⟩
  | 4 => ⟨S131072, .i32⟩
  | 5 => ⟨S131072, .i32⟩
  | 6 => ⟨S131072, .i32⟩
  | 7 => ⟨S_, .f32⟩
  | 8 => ⟨S1024x128, .f32⟩
  | 9 => ⟨S131072x1, .i32⟩
  | 10 => ⟨S1024x128, .f32⟩
  | 11 => ⟨S_, .f32⟩
  | 12 => ⟨S1024x128, .f32⟩
  | 13 => ⟨S1024x128, .f32⟩
  | 14 => ⟨S1024x64, .f32⟩
  | 15 => ⟨S1024x16, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_call3_v0 : Ref sig .tc := ⟨.hbm, 69, rfl⟩
abbrev main_call3_v1 : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_call4_v0 : Ref sig .tc := ⟨.hbm, 77, rfl⟩
abbrev main_call4_v1 : Ref sig .tc := ⟨.hbm, 78, rfl⟩
abbrev main_v46 : Ref sig .tc := ⟨.hbm, 79, rfl⟩
abbrev main_cst_15 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_16 : Ref sig .tc := ⟨.hbm, 87, rfl⟩
abbrev main_v53 : Ref sig .tc := ⟨.hbm, 88, rfl⟩
abbrev main_v54 : Ref sig .tc := ⟨.hbm, 89, rfl⟩
abbrev main_c_17 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_18 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_19 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_20 : Ref sig .tc := ⟨.hbm, 109, rfl⟩
abbrev main_v71 : Ref sig .tc := ⟨.hbm, 110, rfl⟩
abbrev main_v72 : Ref sig .tc := ⟨.hbm, 111, rfl⟩
abbrev main_cst_21 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_22 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_call6_v5 : Ref sig .tc := ⟨.hbm, 123, rfl⟩
abbrev main_call6_v6 : Ref sig .tc := ⟨.hbm, 124, rfl⟩
abbrev main_call6_v7 : Ref sig .tc := ⟨.hbm, 125, rfl⟩
abbrev main_call6_v8 : Ref sig .tc := ⟨.hbm, 126, rfl⟩
abbrev main_call6_c : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_0 : Ref sig .tc := ⟨.hbm, 131, rfl⟩
abbrev main_call6_v12 : Ref sig .tc := ⟨.hbm, 132, rfl⟩
abbrev main_call6_v13 : Ref sig .tc := ⟨.hbm, 133, rfl⟩
abbrev main_v77 : Ref sig .tc := ⟨.hbm, 134, rfl⟩
abbrev main_cst_23 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_24 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  bcast_S1048576x1_S1048576x64_0_1 : S1048576x1.BroadcastsInDim S1048576x64 (![0, 1] : Fin 2 → Fin S1048576x64.rank)
  bcast_S_S131072x64 : S_.BroadcastsInDim S131072x64 (![] : Fin 0 → Fin S131072x64.rank)
  bcast_S_S131072x256 : S_.BroadcastsInDim S131072x256 (![] : Fin 0 → Fin S131072x256.rank)
  bcast_S131072x1_S131072x256_0_1 : S131072x1.BroadcastsInDim S131072x256 (![0, 1] : Fin 2 → Fin S131072x256.rank)
  bcast_S1048576x1_S1048576x128_0_1 : S1048576x1.BroadcastsInDim S1048576x128 (![0, 1] : Fin 2 → Fin S1048576x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  bcast_S_S1024x128 : S_.BroadcastsInDim S1024x128 (![] : Fin 0 → Fin S1024x128.rank)
  scatter_S131072_S1048576x1_S1048576_n_0_0_1_wf : ScatterDims.WF S131072 S1048576x1 S1048576 [] [0] [0] 1
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S131072x64_S64x256_S131072x256_1_0_0_1_n_n_wf : DotDims.WF S131072x64 S64x256 S131072x256 [1] [0] [0] [1] [] []
  dot_S131072x256_S256x128_S131072x128_1_0_0_1_n_n_wf : DotDims.WF S131072x256 S256x128 S131072x128 [1] [0] [0] [1] [] []
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1
  scatter_S1024x128_S131072x1_S131072x128_1_0_0_1_wf : ScatterDims.WF S1024x128 S131072x1 S131072x128 [1] [0] [0] 1
  dot_S1024x128_S128x64_S1024x64_1_0_0_1_n_n_wf : DotDims.WF S1024x128 S128x64 S1024x64 [1] [0] [0] [1] [] []
  dot_S1024x64_S64x16_S1024x16_1_0_0_1_n_n_wf : DotDims.WF S1024x64 S64x16 S1024x16 [1] [0] [0] [1] [] []

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf
def scatter_S1024x128_S131072x1_S131072x128_1_0_0_1 : ScatterDims S1024x128 S131072x1 S131072x128 where
  updateWindowDims := [1]
  insertedWindowDims := [0]
  scatterDimsToOperandDims := [0]
  indexVectorDim := 1
  wf := scatter_S1024x128_S131072x1_S131072x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

class Facts : Prop extends Facts₀ where

variable [Facts]
-- ==== Proof.Stages.lean ====
/-
  The reference's host program, stage by stage, as pure functions of its operands (generic in the float
  instance). Each graph-convolution layer scales node features by deg_out^(-1/2), gathers them along the edges'
  sources, weighs each message by its edge weight, sums the messages into the edges' destinations and scales the
  sums by deg_in^(-1/2); the degrees count the edges per node and are clamped below at 1. The readout sums every
  run of 128 consecutive nodes, divides by 128 and applies two dense layers. The kernel's host stretches apply the
  very same operations, so both programs' results are stated over these functions.
-/
import proofs.«115493_j8117488190078_1_alg».proof.Proof.Gen.ReferenceIdeal

noncomputable section

namespace Cert.ReferenceIdeal.Stages

open Idealize.ShloMosaic Cert.ReferenceIdeal Cert.ReferenceIdeal.Facts₀

variable {F : FTy → Type} [FloatOps F]

/-- The clamped degree of every node (the number of edges whose end is that node, at least 1) to the power -1/2. -/
def invDeg (idx : IVec S1048576 32) : FVec F S131072 .f32 :=
  Host.powf
    (maximumf (broadcastInDim S131072 ![] bcast_S_S131072 (id (constant S_ .f32 0x3F800000#32)))
      (Host.scatterAdd scatter_S131072_S1048576x1_S1048576_n_0_0_1
        (broadcastInDim S131072 ![] bcast_S_S131072 (constant S_ .f32 0x00000000#32))
        (broadcastInDim S1048576x1 ![0] bcast_S1048576_S1048576x1_0 idx)
        (broadcastInDim S1048576 ![] bcast_S_S1048576 (constant S_ .f32 0x3F800000#32))))
    (broadcastInDim S131072 ![] bcast_S_S131072 (constant S_ .f32 0xBF000000#32))

/-- An edge's source as a row number: a negative index counts from the end. -/
def wrapIdx (idx : IVec S1048576 32) : IVec S1048576x1 32 :=
  broadcastInDim S1048576x1 ![0] bcast_S1048576_S1048576x1_0
    (select (cmpi .slt idx (broadcastInDim S1048576 ![] bcast_S_S1048576 (constantI S_ 32 0#32)))
      (addi idx (broadcastInDim S1048576 ![] bcast_S_S1048576 (constantI S_ 32 131072#32))) idx)

/-- Layer 1 before its projection: the normalised, edge-weighted sum of the neighbours' 64 features. -/
def agg1 (x : FVec F S131072x64 .f32) (ew : FVec F S1048576 .f32) (src dst : IVec S1048576 32) : FVec F S131072x64 .f32 :=
  mulf
    (Host.scatterAdd scatter_S131072x64_S1048576x1_S1048576x64_1_0_0_1
      (broadcastInDim S131072x64 ![] bcast_S_S131072x64 (constant S_ .f32 0x00000000#32))
      (broadcastInDim S1048576x1 ![0] bcast_S1048576_S1048576x1_0 dst)
      (mulf
        (Host.gather gather_S131072x64_S1048576x1_S1048576x64_1_0_n_n_0_1_164
          (mulf x (broadcastInDim S131072x64 ![0, 1] bcast_S131072x1_S131072x64_0_1
            (broadcastInDim S131072x1 ![0] bcast_S131072_S131072x1_0 (invDeg src))))
          (wrapIdx src))
        (broadcastInDim S1048576x64 ![0, 1] bcast_S1048576x1_S1048576x64_0_1
          (broadcastInDim S1048576x1 ![0] bcast_S1048576_S1048576x1_0 ew))))
    (broadcastInDim S131072x64 ![0, 1] bcast_S131072x1_S131072x64_0_1
      (broadcastInDim S131072x1 ![0] bcast_S131072_S131072x1_0 (invDeg dst)))

/-- The leaky rectifier on the 256 hidden features: y where y ≥ 0, the literal near 1/100 times y elsewhere. -/
def leaky256 (y : FVec F S131072x256 .f32) : FVec F S131072x256 .f32 :=
  select (cmpf .oge y (broadcastInDim S131072x256 ![] bcast_S_S131072x256 (constant S_ .f32 0x00000000#32))) y
    (mulf (broadcastInDim S131072x256 ![] bcast_S_S131072x256 (constant S_ .f32 0x3C23D70A#32)) y)

/-- Layer 2's input scaled by deg_out^(-1/2), before its projection. -/
def scaleOut256 (h : FVec F S131072x256 .f32) (src : IVec S1048576 32) : FVec F S131072x256 .f32 :=
  mulf h (broadcastInDim S131072x256 ![0, 1] bcast_S131072x1_S131072x256_0_1
    (broadcastInDim S131072x1 ![0] bcast_S131072_S131072x1_0 (invDeg src)))

/-- Layer 2 after its projection, before the rectifier: the normalised, edge-weighted sum of the neighbours' 128 features. -/
def agg2pre (b : FVec F S131072x128 .f32) (ew : FVec F S1048576 .f32) (src dst : IVec S1048576 32) : FVec F S131072x128 .f32 :=
  mulf
    (Host.scatterAdd scatter_S131072x128_S1048576x1_S1048576x128_1_0_0_1
      (broadcastInDim S131072x128 ![] bcast_S_S131072x128 (constant S_ .f32 0x00000000#32))
      (broadcastInDim S1048576x1 ![0] bcast_S1048576_S1048576x1_0 dst)
      (mulf
        (Host.gather gather_S131072x128_S1048576x1_S1048576x128_1_0_n_n_0_1_1128 b (wrapIdx src))
        (broadcastInDim S1048576x128 ![0, 1] bcast_S1048576x1_S1048576x128_0_1
          (broadcastInDim S1048576x1 ![0] bcast_S1048576_S1048576x1_0 ew))))
    (broadcastInDim S131072x128 ![0, 1] bcast_S131072x1_S131072x128_0_1
      (broadcastInDim S131072x1 ![0] bcast_S131072_S131072x1_0 (invDeg dst)))

/-- The leaky rectifier on the 128 output features. -/
def leaky128 (y : FVec F S131072x128 .f32) : FVec F S131072x128 .f32 :=
  select (cmpf .oge y (broadcastInDim S131072x128 ![] bcast_S_S131072x128 (constant S_ .f32 0x00000000#32))) y
    (mulf (broadcastInDim S131072x128 ![] bcast_S_S131072x128 (constant S_ .f32 0x3C23D70A#32)) y)

/-- Layer 2 after its projection and rectifier. -/
def agg2 (b : FVec F S131072x128 .f32) (ew : FVec F S1048576 .f32) (src dst : IVec S1048576 32) : FVec F S131072x128 .f32 :=
  leaky128 (agg2pre b ew src dst)

/-- The divisor 128 on every node. -/
def c128 : IVec S131072 32 := broadcastInDim S131072 ![] bcast_S_S131072 (id (constantI S_ 32 128#32))

/-- The node numbers 0, 1, 2, … -/
def nodeIota : IVec S131072 32 := iotaInDim S131072 32 0

/-- Each node's graph number: its own number divided by 128, rounded towards minus infinity (the truncated
    quotient, less one where the signs differ and the remainder is not zero). -/
def gid : IVec S131072 32 :=
  select
    (andi
      (cmpi .ne (signi nodeIota) (broadcastInDim S131072 ![] bcast_S_S131072 (signi (id (constantI S_ 32 128#32)))))
      (cmpi .ne (Host.remsi nodeIota c128) (broadcastInDim S131072 ![] bcast_S_S131072 (constantI S_ 32 0#32))))
    (subi (Host.divsi nodeIota c128) (broadcastInDim S131072 ![] bcast_S_S131072 (constantI S_ 32 1#32)))
    (Host.divsi nodeIota c128)

/-- The readout's mean: every graph's node features summed, divided by 128. -/
def pool (h : FVec F S131072x128 .f32) : FVec F S1024x128 .f32 :=
  Host.divf
    (Host.scatterAdd scatter_S1024x128_S131072x1_S131072x128_1_0_0_1
      (broadcastInDim S1024x128 ![] bcast_S_S1024x128 (constant S_ .f32 0x00000000#32))
      (broadcastInDim S131072x1 ![0] bcast_S131072_S131072x1_0 gid) h)
    (broadcastInDim S1024x128 ![] bcast_S_S1024x128 (constant S_ .f32 0x43000000#32))

/-- The two dense layers of the head on the pooled features. -/
def head (p : FVec F S1024x128 .f32) (wlin : FVec F S128x64 .f32) (wcls : FVec F S64x16 .f32) : FVec F S1024x16 .f32 :=
  Host.dotGeneral dot_S1024x64_S64x16_S1024x16_1_0_0_1_n_n none
    (Host.dotGeneral dot_S1024x128_S128x64_S1024x64_1_0_0_1_n_n none p wlin) wcls

/-- Layer 1: aggregate, project to 256 features, rectify. -/
def layer1 (x : FVec F S131072x64 .f32) (ew : FVec F S1048576 .f32) (w1 : FVec F S64x256 .f32) (src dst : IVec S1048576 32) :
    FVec F S131072x256 .f32 :=
  leaky256 (Host.dotGeneral dot_S131072x64_S64x256_S131072x256_1_0_0_1_n_n none (agg1 x ew src dst) w1)

/-- Layer 2's projection of the scaled hidden features to 128 features. -/
def proj2 (h1 : FVec F S131072x256 .f32) (w2 : FVec F S256x128 .f32) (src : IVec S1048576 32) : FVec F S131072x128 .f32 :=
  Host.dotGeneral dot_S131072x256_S256x128_S131072x128_1_0_0_1_n_n none (scaleOut256 h1 src) w2

/-- The whole reference: two layers, the readout, the head. -/
def result (x : FVec F S131072x64 .f32) (ew : FVec F S1048576 .f32) (w1 : FVec F S64x256 .f32) (w2 : FVec F S256x128 .f32)
    (wlin : FVec F S128x64 .f32) (wcls : FVec F S64x16 .f32) (src dst : IVec S1048576 32) : FVec F S1024x16 .f32 :=
  head (pool (agg2 (proj2 (layer1 x ew w1 src dst) w2 src) ew src dst)) wlin wcls

end Cert.ReferenceIdeal.Stages

end
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.RegProj.lean ====
/-
  Regions 0 and 1 of the kernel: a row-tiled matrix product (with the leaky rectifier in region 0). Each grid
  point multiplies its block of 4096 rows by the whole weight matrix, so the array the region leaves is the whole
  product, entry by entry the same sum over the contracted axis as the reference's one dot product.

  In detail, for region 0 (x of 131072 rows and 64 columns, w of 64 rows and 256 columns): grid point t reads rows
  4096 t, …, 4096 t + 4095 of x and all of w, and writes rows 4096 t, … of the result. Entry (y, q) of what it
  writes is leaky (∑ k, x (4096 t + y, k) · w (k, q)), where leaky y is y for y ≥ 0 and a fixed literal near 1/100
  times y otherwise; the narrowing of the operands to 16 bits is the identity on exact values, and the accumulator
  starts at zero. Entry (4096 t + y, q) of the whole rectified product is the same expression, the rectifier being
  entrywise. Row r lies in the block of point r / 4096, so the 32 blocks cover the result array and it ends holding
  the whole rectified product. Region 1 (x of 256 columns, w of 256 rows and 128 columns) is the same without the
  rectifier.
-/
import proofs.«115493_j8117488190078_1_alg».proof.Proof.Gen.KernelIdeal.Frame
import proofs.«115493_j8117488190078_1_alg».proof.Proof.Stages
import proofs.«115493_j8117488190078_1_alg».proof.Proof.LibPlainDot

set_option maxRecDepth 16384

noncomputable section

namespace Cert.KernelIdeal.RegValue

open Idealize.ShloMosaic Idealize.ShloMosaic.TcCoe Idealize.ShloMosaic.ValueIdx Cert.KernelIdeal Cert.KernelIdeal.Gen
open Idealize.SL.Sem
open scoped BigOperators

/-! ## Region 0: the rectified row-tiled product -/

/-- The leaky rectifier on one extended real: y where y ≥ 0, the literal near 1/100 times y elsewhere. -/
def leakyAt (y : Ideal .f32) : Ideal .f32 :=
  Scalar.select (FloatOps.cmpf .oge y (Ideal.ofBits .f32 0x00000000#32)) y (Ideal.ofBits .f32 0x3C23D70A#32 * y)

/-- A block's product contracts the left operand's columns against the right operand's rows, with no batch axis … -/
theorem plain_blk0 : PlainDot.IsPlain dot_S4096x64_S64x256_S4096x256_1_0_0_1_n_n := ⟨rfl, rfl, rfl, rfl, rfl, rfl⟩
/-- … and so does the whole product. -/
theorem plain_ref0 : PlainDot.IsPlain Cert.ReferenceIdeal.dot_S131072x64_S64x256_S131072x256_1_0_0_1_n_n := ⟨rfl, rfl, rfl, rfl, rfl, rfl⟩

/-- An entry of what a grid point computes from its blocks: the rectifier of the sum over the 64 shared coordinates
    (the narrowing to 16 bits and the same-shape cast are the identity, the accumulator is zero). -/
theorem pay0_apply (x0 : Vec Ideal S4096x64 .f32) (x1 : Vec Ideal S64x256 .f32) (p : Fin 4096) (q : Fin 256) :
    k0_pay1 (F := Ideal) x0 x1 (ix2 p q) = leakyAt (∑ k : Fin 64, x0 (ix2 p k) * x1 (ix2 k q)) := by
  unfold k0_pay1
  simp only [select_apply, cmpf_apply, mulf_apply, broadcast_apply, matmul]
  rw [PlainDot.matmul_zero_apply plain_blk0]
  simp only [truncf_apply, shapeCast_self]
  rfl

/-- An entry of the whole rectified product: the rectifier of the same sum (the rectifier is entrywise, its two
    constants are splats). -/
theorem ref0_apply (X : FVec Ideal Cert.ReferenceIdeal.S131072x64 .f32) (W : FVec Ideal Cert.ReferenceIdeal.S64x256 .f32) (P : Fin 131072) (q : Fin 256) :
    Cert.ReferenceIdeal.Stages.leaky256 (F := Ideal)
        (Host.dotGeneral (φ₁ := .f32) (φ₂ := .f32) Cert.ReferenceIdeal.dot_S131072x64_S64x256_S131072x256_1_0_0_1_n_n none X W) (ix2 P q)
      = leakyAt (∑ k : Fin 64, X (ix2 P k) * W (ix2 k q)) := by
  unfold Cert.ReferenceIdeal.Stages.leaky256
  simp only [select_apply, cmpf_apply, mulf_apply, Host.dotGeneral]
  rw [PlainDot.dotGeneral_apply plain_ref0]
  rfl

/-- The offsets of a whole-buffer access are zero on both axes. -/
theorem zero_off : (![0, 0] : Fin 2 → Nat) = fun _ => 0 := funext fun a => by fin_cases a <;> rfl

/-- The index maps over the grid: the row block of the left operand and of the result is the grid point's
    number, the weight matrix is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole rectified product, the function the result array ends holding. -/
abbrev whole0 (X : FVec Ideal Cert.ReferenceIdeal.S131072x64 .f32) (W : FVec Ideal Cert.ReferenceIdeal.S64x256 .f32) :
    FVec Ideal Cert.ReferenceIdeal.S131072x256 .f32 :=
  Cert.ReferenceIdeal.Stages.leaky256 (F := Ideal)
    (Host.dotGeneral (φ₁ := .f32) (φ₂ := .f32) Cert.ReferenceIdeal.dot_S131072x64_S64x256_S131072x256_1_0_0_1_n_n none X W)

/-- One entry of a block's rectified product is the entry of the whole one in the block's row range, when the
    block's row p is the array's row P and the weight block is the weight matrix. -/
theorem point0 (x0 : Vec Ideal S4096x64 .f32) (x1 : Vec Ideal S64x256 .f32)
    (X : FVec Ideal Cert.ReferenceIdeal.S131072x64 .f32) (W : FVec Ideal Cert.ReferenceIdeal.S64x256 .f32)
    (p : Fin 4096) (q : Fin 256) (P : Fin 131072)
    (h0 : ∀ k : Fin 64, x0 (ix2 p k) = X (ix2 P k)) (h1 : ∀ k : Fin 64, x1 (ix2 k q) = W (ix2 k q)) :
    k0_pay1 (F := Ideal) x0 x1 (ix2 p q) = whole0 X W (ix2 P q) := by
  rw [pay0_apply, whole0, ref0_apply]
  exact congrArg leakyAt (Finset.sum_congr rfl fun k _ => by rw [h0 k, h1 k])

variable (V : (c : Dev nD) → (b : Ref sig .tc) → Buf (Elt Ideal) ((c : Thread nD τ).loc b))

/-- What grid point t writes back is its block of rows of the whole rectified product. -/
theorem flushed0 (c : Dev nD) (t : Fin cfg0.N) :
    (dat0 (F := Ideal) V c).flushed 2 t
      = ((cfg0.win 2).blk t).view.read (Elt Ideal) (whole0 (V c main_v31) (V c main_arg2)) := by
  show (cfg0.win 2).cut (grid0.coords t) ((dat0 V c).after 2 t) = _
  rw [after0_2]
  unfold out0_2
  rw [View.canon_unit_zero zero_off]
  simp only [View.ld_unit_zero (S := S4096x64) zero_off, View.ld_unit_zero (S := S64x256) zero_off]
  obtain ⟨e0, e1, e2, e3, e4, e5⟩ := idx0 t
  funext j
  have hj0 : (j 0).val < 4096 := (j 0).isLt
  have hj1 : (j 1).val < 256 := (j 1).isLt
  have ht : t.val < 32 := by have hN : cfg0.N = 32 := N_0; have := t.isLt; omega
  have hcut : (cfg0.win 2).xinj (grid0.coords t) j = ix2 (⟨(j 0).val, hj0⟩ : Fin 4096) (⟨(j 1).val, hj1⟩ : Fin 256) :=
    funext fun a => match a with | ⟨0, _⟩ => rfl | ⟨1, _⟩ => rfl
  have hemb : ((cfg0.win 2).blk t).view.emb j
      = ix2 (⟨t.val * 4096 + (j 0).val, by omega⟩ : Fin 131072) (⟨(j 1).val, hj1⟩ : Fin 256) :=
    funext fun a => Fin.ext (by
      match a with
      | ⟨0, _⟩ => show win0_2.index t (0 : Fin 2) * 4096 + 1 * (j 0).val = t.val * 4096 + (j 0).val; rw [e4]; omega
      | ⟨1, _⟩ => show win0_2.index t (1 : Fin 2) * 256 + 1 * (j 1).val = (j 1).val; rw [e5]; omega)
  show k0_pay1 (F := Ideal) (iblk0 V c 0 t) (iblk0 V c 1 t) ((cfg0.win 2).xinj (grid0.coords t) j)
    = whole0 (V c main_v31) (V c main_arg2) (((cfg0.win 2).blk t).view.emb j)
  rw [hcut, hemb]
  refine point0 _ _ _ _ _ _ _ (fun k => ?_) (fun k => ?_)
  · show V c main_v31 (((cfg0.win 0).blk t).view.emb (ix2 (⟨(j 0).val, hj0⟩ : Fin 4096) k)) = _
    congr 1
    funext a; apply Fin.ext
    match a with
    | ⟨0, _⟩ => show win0_0.index t (0 : Fin 2) * 4096 + 1 * (j 0).val = t.val * 4096 + (j 0).val; rw [e0]; omega
    | ⟨1, _⟩ => show win0_0.index t (1 : Fin 2) * 64 + 1 * k.val = k.val; rw [e1]; omega
  · show V c main_arg2 (((cfg0.win 1).blk t).view.emb (ix2 k (⟨(j 1).val, hj1⟩ : Fin 256))) = _
    congr 1
    funext a; apply Fin.ext
    match a with
    | ⟨0, _⟩ => show win0_1.index t (0 : Fin 2) * 64 + 1 * k.val = k.val; rw [e2]; omega
    | ⟨1, _⟩ => show win0_1.index t (1 : Fin 2) * 256 + 1 * (j 1).val = (j 1).val; rw [e3]; omega

/-- An entry of the result array is in point t's block iff each coordinate is in the block's range on its axis. -/
theorem mem_blk0 (t : Fin cfg0.N) (i : S131072x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v32).slice (win0_2.rect t)).set ↔ _
  rw [View.set_slice_whole, Rect.mem_set_unit]
  exact Iff.rfl

/-- Row r of the result array is written by grid point r / 4096. -/
theorem cover0 (i : S131072x256.Idx) :
    ∃ t : Fin cfg0.N, (cfg0.win 2).flush t = true ∧ i ∈ ((cfg0.win 2).blk t).view.set := by
  have hi0 : (i 0).val < 131072 := (i 0).isLt
  have hi1 : (i 1).val < 256 := (i 1).isLt
  have hN : cfg0.N = 32 := N_0
  have hlt : (i 0).val / 4096 < cfg0.N := by rw [hN]; omega
  obtain ⟨-, -, -, -, e4, e5⟩ := idx0 ⟨(i 0).val / 4096, hlt⟩
  refine ⟨⟨(i 0).val / 4096, hlt⟩, flush0_2 _, ?_⟩
  rw [mem_blk0]
  intro a
  match a with
  | ⟨0, _⟩ =>
    show win0_2.index ⟨(i 0).val / 4096, hlt⟩ (0 : Fin 2) * 4096 ≤ (i 0).val
      ∧ (i 0).val < win0_2.index ⟨(i 0).val / 4096, hlt⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, hlt⟩ (1 : Fin 2) * 256 ≤ (i 1).val
      ∧ (i 1).val < win0_2.index ⟨(i 0).val / 4096, hlt⟩ (1 : Fin 2) * 256 + 256
    rw [e5]; omega

/-- Region 0 leaves in its output array the rectified product of its two input arrays. -/
theorem reg0_value (c : Dev nD) :
    (dat0 (F := Ideal) V c).arrAt 2 cfg0.N
      = Cert.ReferenceIdeal.Stages.leaky256 (F := Ideal)
          (Host.dotGeneral (φ₁ := .f32) (φ₂ := .f32) Cert.ReferenceIdeal.dot_S131072x64_S64x256_S131072x256_1_0_0_1_n_n none (V c main_v31) (V c main_arg2)) :=
  (dat0 (F := Ideal) V c).arrAt_eq_of_cover 2 (whole0 (V c main_v31) (V c main_arg2)) (fun t _ => flushed0 V c t) cover0

/-! ## Region 1: the plain row-tiled product -/

theorem plain_blk1 : PlainDot.IsPlain dot_S4096x256_S256x128_S4096x128_1_0_0_1_n_n := ⟨rfl, rfl, rfl, rfl, rfl, rfl⟩
theorem plain_ref1 : PlainDot.IsPlain Cert.ReferenceIdeal.dot_S131072x256_S256x128_S131072x128_1_0_0_1_n_n := ⟨rfl, rfl, rfl, rfl, rfl, rfl⟩

/-- An entry of a block's product: the sum over the 256 shared coordinates. -/
theorem pay1_apply (x0 : Vec Ideal S4096x256 .f32) (x1 : Vec Ideal S256x128 .f32) (p : Fin 4096) (q : Fin 128) :
    k1_pay1 (F := Ideal) x0 x1 (ix2 p q) = ∑ k : Fin 256, x0 (ix2 p k) * x1 (ix2 k q) := by
  unfold k1_pay1
  simp only [matmul]
  rw [PlainDot.matmul_zero_apply plain_blk1]
  simp only [truncf_apply, shapeCast_self]

/-- The whole product, the function the result array ends holding. -/
abbrev whole1 (X : FVec Ideal Cert.ReferenceIdeal.S131072x256 .f32) (W : FVec Ideal Cert.ReferenceIdeal.S256x128 .f32) :
    FVec Ideal Cert.ReferenceIdeal.S131072x128 .f32 :=
  Host.dotGeneral (F := Ideal) (φ₁ := .f32) (φ₂ := .f32) Cert.ReferenceIdeal.dot_S131072x256_S256x128_S131072x128_1_0_0_1_n_n none X W

/-- An entry of the whole product: the same sum. -/
theorem ref1_apply (X : FVec Ideal Cert.ReferenceIdeal.S131072x256 .f32) (W : FVec Ideal Cert.ReferenceIdeal.S256x128 .f32)
    (P : Fin 131072) (q : Fin 128) :
    whole1 X W (ix2 P q) = ∑ k : Fin 256, X (ix2 P k) * W (ix2 k q) := by
  simp only [whole1, Host.dotGeneral]
  rw [PlainDot.dotGeneral_apply plain_ref1]

/-- One entry of a block's product is the entry of the whole one in the block's row range. -/
theorem point1 (x0 : Vec Ideal S4096x256 .f32) (x1 : Vec Ideal S256x128 .f32)
    (X : FVec Ideal Cert.ReferenceIdeal.S131072x256 .f32) (W : FVec Ideal Cert.ReferenceIdeal.S256x128 .f32)
    (p : Fin 4096) (q : Fin 128) (P : Fin 131072)
    (h0 : ∀ k : Fin 256, x0 (ix2 p k) = X (ix2 P k)) (h1 : ∀ k : Fin 256, x1 (ix2 k q) = W (ix2 k q)) :
    k1_pay1 (F := Ideal) x0 x1 (ix2 p q) = whole1 X W (ix2 P q) := by
  rw [pay1_apply, ref1_apply]
  exact Finset.sum_congr rfl fun k _ => by rw [h0 k, h1 k]

/-- The printed index maps over the grid: the row block of the left operand and of the result is the grid point's
    number, the weight matrix is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is its block of rows of the whole product. -/
theorem flushed1 (c : Dev nD) (t : Fin cfg1.N) :
    (dat1 (F := Ideal) V c).flushed 2 t
      = ((cfg1.win 2).blk t).view.read (Elt Ideal) (whole1 (V c main_v35) (V c main_arg3)) := by
  show (cfg1.win 2).cut (grid1.coords t) ((dat1 V c).after 2 t) = _
  rw [after1_2]
  unfold out1_2
  rw [View.canon_unit_zero zero_off]
  simp only [View.ld_unit_zero (S := S4096x256) zero_off, View.ld_unit_zero (S := S256x128) zero_off]
  obtain ⟨e0, e1, e2, e3, e4, e5⟩ := idx1 t
  funext j
  have hj0 : (j 0).val < 4096 := (j 0).isLt
  have hj1 : (j 1).val < 128 := (j 1).isLt
  have ht : t.val < 32 := by have hN : cfg1.N = 32 := N_1; have := t.isLt; omega
  have hcut : (cfg1.win 2).xinj (grid1.coords t) j = ix2 (⟨(j 0).val, hj0⟩ : Fin 4096) (⟨(j 1).val, hj1⟩ : Fin 128) :=
    funext fun a => match a with | ⟨0, _⟩ => rfl | ⟨1, _⟩ => rfl
  have hemb : ((cfg1.win 2).blk t).view.emb j
      = ix2 (⟨t.val * 4096 + (j 0).val, by omega⟩ : Fin 131072) (⟨(j 1).val, hj1⟩ : Fin 128) :=
    funext fun a => Fin.ext (by
      match a with
      | ⟨0, _⟩ => show win1_2.index t (0 : Fin 2) * 4096 + 1 * (j 0).val = t.val * 4096 + (j 0).val; rw [e4]; omega
      | ⟨1, _⟩ => show win1_2.index t (1 : Fin 2) * 128 + 1 * (j 1).val = (j 1).val; rw [e5]; omega)
  show k1_pay1 (F := Ideal) (iblk1 V c 0 t) (iblk1 V c 1 t) ((cfg1.win 2).xinj (grid1.coords t) j)
    = whole1 (V c main_v35) (V c main_arg3) (((cfg1.win 2).blk t).view.emb j)
  rw [hcut, hemb]
  refine point1 _ _ _ _ _ _ _ (fun k => ?_) (fun k => ?_)
  · show V c main_v35 (((cfg1.win 0).blk t).view.emb (ix2 (⟨(j 0).val, hj0⟩ : Fin 4096) k)) = _
    congr 1
    funext a; apply Fin.ext
    match a with
    | ⟨0, _⟩ => show win1_0.index t (0 : Fin 2) * 4096 + 1 * (j 0).val = t.val * 4096 + (j 0).val; rw [e0]; omega
    | ⟨1, _⟩ => show win1_0.index t (1 : Fin 2) * 256 + 1 * k.val = k.val; rw [e1]; omega
  · show V c main_arg3 (((cfg1.win 1).blk t).view.emb (ix2 k (⟨(j 1).val, hj1⟩ : Fin 128))) = _
    congr 1
    funext a; apply Fin.ext
    match a with
    | ⟨0, _⟩ => show win1_1.index t (0 : Fin 2) * 256 + 1 * k.val = k.val; rw [e2]; omega
    | ⟨1, _⟩ => show win1_1.index t (1 : Fin 2) * 128 + 1 * (j 1).val = (j 1).val; rw [e3]; omega

/-- An entry of the result array is in point t's block iff each coordinate is in the block's range on its axis. -/
theorem mem_blk1 (t : Fin cfg1.N) (i : S131072x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v36).slice (win1_2.rect t)).set ↔ _
  rw [View.set_slice_whole, Rect.mem_set_unit]
  exact Iff.rfl

/-- Row r of the result array is written by grid point r / 4096. -/
theorem cover1 (i : S131072x128.Idx) :
    ∃ t : Fin cfg1.N, (cfg1.win 2).flush t = true ∧ i ∈ ((cfg1.win 2).blk t).view.set := by
  have hi0 : (i 0).val < 131072 := (i 0).isLt
  have hi1 : (i 1).val < 128 := (i 1).isLt
  have hN : cfg1.N = 32 := N_1
  have hlt : (i 0).val / 4096 < cfg1.N := by rw [hN]; omega
  obtain ⟨-, -, -, -, e4, e5⟩ := idx1 ⟨(i 0).val / 4096, hlt⟩
  refine ⟨⟨(i 0).val / 4096, hlt⟩, flush1_2 _, ?_⟩
  rw [mem_blk1]
  intro a
  match a with
  | ⟨0, _⟩ =>
    show win1_2.index ⟨(i 0).val / 4096, hlt⟩ (0 : Fin 2) * 4096 ≤ (i 0).val
      ∧ (i 0).val < win1_2.index ⟨(i 0).val / 4096, hlt⟩ (0 : Fin 2) * 4096 + 4096
    rw [e4]; show (i 0).val / 4096 * 4096 ≤ (i 0).val ∧ (i 0).val < (i 0).val / 4096 * 4096 + 4096; omega
  | ⟨1, _⟩ =>
    show win1_2.index ⟨(i 0).val / 4096, hlt⟩ (1 : Fin 2) * 128 ≤ (i 1).val
      ∧ (i 1).val < win1_2.index ⟨(i 0).val / 4096, hlt⟩ (1 : Fin 2) * 128 + 128
    rw [e5]; omega

/-- Region 1 leaves in its output array the product of its two input arrays. -/
theorem reg1_value (c : Dev nD) :
    (dat1 (F := Ideal) V c).arrAt 2 cfg1.N
      = Host.dotGeneral (F := Ideal) (φ₁ := .f32) (φ₂ := .f32) Cert.ReferenceIdeal.dot_S131072x256_S256x128_S131072x128_1_0_0_1_n_n none (V c main_v35) (V c main_arg3) :=
  (dat1 (F := Ideal) V c).arrAt_eq_of_cover 2 (whole1 (V c main_v35) (V c main_arg3)) (fun t _ => flushed1 V c t) cover1

end Cert.KernelIdeal.RegValue

end
-- ==== Proof.LibScatterRows.lean ====
/-
  A float `stablehlo.scatter` with an `add` body that adds WHOLE ROWS into a rank-2 operand, read at an index.

  What `jax.ops.segment_sum(upd, seg, num_segments = N)` (`.at[seg].add(upd)`) of updates `upd : [R, C]` at a
  one-column integer array `idx : [R, 1]` into an operand `[N, C]` lowers to: `lax.scatter_add` with
  update_window_dims `[1]`, inserted_window_dims `[0]`, scatter_dims_to_operand_dims `[0]`, index_vector_dim `1`.
  Update element `(j, q')` lands at row `idx[j, 0]`, read as a signed integer and NOT clamped, column `q'`; an
  update whose row is outside `[0, N)` is dropped.

  `resultIdx?_eq_some_iff` (any dimension numbers): an update lands at `i` iff on every axis its start plus its
  window coordinate is `i`'s coordinate. `rowDims N R C wf` are the dimension numbers above, generic in the three
  extents; `resultIdx?_rows_iff` is the landing condition for them, and `scatterAdd_rows_apply` is the exact
  (extended-real) scatter-add read at `(n, q)`: the operand's entry plus the sum, over the update rows `j` whose
  index is `n`, of `upd[j, q]`.
-/
import Idealize.ShloMosaic.PureOps.Ideal
import Idealize.ShloMosaic.Lib.ValueIdx

namespace Idealize.ShloMosaic.ScatterRows

open Idealize.ShloMosaic Idealize.ShloMosaic.ValueIdx
open scoped BigOperators

/-- An update index `j` lands at operand index `i` exactly when, on every operand axis, the start read off the
    scatter indices plus `j`'s window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · next hh =>
      have hi := Option.some.inj h
      intro a
      have ha : (d.start j idx a + (d.window j a : Int)).toNat = (i a).val :=
        congrArg (fun f : s.Idx => (f a).val) hi
      have h0 := (hh a).1
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    show (d.start j idx a + (d.window j a : Int)).toNat = (i a).val
    have h1 := h a
    omega

/-- The dimension numbers of a row scatter for an operand `[N, C]`, scatter indices `[R, 1]` and updates `[R, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)

/-- The row axis is inserted: it is not among the operand's kept axes. -/
theorem row_not_kept : (0 : Fin 2) ∉ (rowDims N R C wf).sKept := by
  simp [ScatterDims.sKept, Shape.kept, List.mem_filter, List.mem_finRange]

/-- The column axis is kept. -/
theorem col_kept : (1 : Fin 2) ∈ (rowDims N R C wf).sKept := by
  simp [ScatterDims.sKept, Shape.kept, List.mem_filter, List.mem_finRange]

/-- On the row axis the start is the scatter index `idx[j, 0]`, read signed. -/
theorem start_row (idx : IVec ⟨2, ![R, 1]⟩ w) (j : Fin R) (q : Fin C) :
    (rowDims N R C wf).start (ix2 j q) idx 0 = (idx (ix2 j (0 : Fin 1))).toInt := by
  unfold ScatterDims.start
  rw [dif_pos (show (0 : Fin 2) ∈ (rowDims N R C wf).scatterDimsToOperandDims from List.mem_singleton.mpr rfl)]
  have hsi : (rowDims N R C wf).siIdx (ix2 j q) ⟨List.idxOf (0 : Fin 2) (rowDims N R C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the column axis the start is zero: the map does not name it. -/
theorem start_col (idx : IVec ⟨2, ![R, 1]⟩ w) (j : Fin R) (q : Fin C) :
    (rowDims N R C wf).start (ix2 j q) idx 1 = 0 := by
  unfold ScatterDims.start
  rw [dif_neg (show (1 : Fin 2) ∉ (rowDims N R C wf).scatterDimsToOperandDims from
    fun h => absurd (congrArg Fin.val (List.mem_singleton.mp h)) Nat.one_ne_zero)]

/-- On the row axis the window coordinate is zero. -/
theorem window_row (j : Fin R) (q : Fin C) : (rowDims N R C wf).window (ix2 j q) 0 = 0 := by
  unfold ScatterDims.window
  rw [dif_neg (row_not_kept wf)]

/-- On the column axis the window coordinate is the update's column. -/
theorem window_col (j : Fin R) (q : Fin C) : (rowDims N R C wf).window (ix2 j q) 1 = q.val := by
  unfold ScatterDims.window
  rw [dif_pos (col_kept wf)]
  rfl

/-- Update element `(j, q')` lands at `(n, q)` exactly when its scatter index, read signed, is `n` and `q' = q`. -/
theorem resultIdx?_rows_iff (idx : IVec ⟨2, ![R, 1]⟩ w) (j : Fin R) (q' : Fin C) (n : Fin N) (q : Fin C) :
    (rowDims N R C wf).resultIdx? (ix2 j q') idx = some (ix2 n q)
      ↔ (idx (ix2 j (0 : Fin 1))).toInt = (n.val : Int) ∧ q' = q := by
  rw [resultIdx?_eq_some_iff]
  constructor
  · intro h
    have h0 : (rowDims N R C wf).start (ix2 j q') idx 0 + ((rowDims N R C wf).window (ix2 j q') 0 : Int) = (n.val : Int) := h 0
    have h1 : (rowDims N R C wf).start (ix2 j q') idx 1 + ((rowDims N R C wf).window (ix2 j q') 1 : Int) = (q.val : Int) := h 1
    rw [start_row, window_row] at h0
    rw [start_col, window_col] at h1
    refine ⟨by omega, Fin.ext (by omega)⟩
  · rintro ⟨h0, rfl⟩ a
    match a with
    | ⟨0, _⟩ =>
      show (rowDims N R C wf).start (ix2 j q') idx 0 + ((rowDims N R C wf).window (ix2 j q') 0 : Int) = (n.val : Int)
      rw [start_row, window_row]; omega
    | ⟨1, _⟩ =>
      show (rowDims N R C wf).start (ix2 j q') idx 1 + ((rowDims N R C wf).window (ix2 j q') 1 : Int) = (q'.val : Int)
      rw [start_col, window_col]; omega

/-- THE ROW SCATTER-ADD READ AT `(n, q)`: the operand's entry plus the sum of `upd[j, q]` over the update rows `j`
    whose scatter index, read signed, is `n`. -/
theorem scatterAdd_rows_apply (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowDims N R C wf) x idx upd (ix2 n q)
      = x (ix2 n q) + ∑ j : Fin R, if (idx (ix2 j (0 : Fin 1))).toInt = (n.val : Int) then upd (ix2 j q) else 0 := by
  unfold Ideal.hostScatterAdd
  congr 1
  rw [Finset.sum_filter, sum_idx2]
  refine Finset.sum_congr rfl fun j _ => ?_
  rw [Finset.sum_eq_single q]
  · by_cases hj : (idx (ix2 j (0 : Fin 1))).toInt = (n.val : Int)
    · rw [if_pos ((resultIdx?_rows_iff wf idx j q n q).mpr ⟨hj, rfl⟩), if_pos hj]
    · rw [if_neg (fun h => hj ((resultIdx?_rows_iff wf idx j q n q).mp h).1), if_neg hj]
  · intro b _ hb
    exact if_neg (fun h => hb ((resultIdx?_rows_iff wf idx j b n q).mp h).2)
  · intro h
    exact absurd (Finset.mem_univ q) h

end

end Idealize.ShloMosaic.ScatterRows
-- ==== Proof.PoolSum.lean ====
/-
  The readout's mean read at an entry: node n belongs to graph n / 128, so the scatter-add by graph number sums,
  for graph g, the 128 consecutive rows 128 g, …, 128 g + 127, and dividing by 128 is multiplying by 2^-7.
-/
import proofs.«115493_j8117488190078_1_alg».proof.Proof.Stages
import proofs.«115493_j8117488190078_1_alg».proof.Proof.LibScatterRows
import Idealize.ShloMosaic.Lib.ValueIdx
import Idealize.ShloMosaic.PureOps.Ideal.Laws
import Idealize.ShloMosaic.Lib.StableHlo.Predicate

noncomputable section

open scoped BigOperators

namespace Cert.ReferenceIdeal.PoolSum

open Idealize.ShloMosaic Idealize.ShloMosaic.ValueIdx Cert.ReferenceIdeal

/-! ## Words: a small non-negative word divided by 128 -/

/-- The signed quotient of a word below 2^31 by 128 meets no corner and is the natural quotient. -/
theorem divsi_128 (u : ArithUnit) (n : ℕ) (hn : n < 2 ^ 31) :
    IntOp.divsi u (BitVec.ofNat 32 n) 128#32 = BitVec.ofNat 32 (n / 128) := by
  have hcorner : ¬ IntOp.SDivCorner (BitVec.ofNat 32 n) 128#32 := by
    intro hc; rcases hc with hc | ⟨_, hc⟩ <;> exact absurd hc (by decide)
  have hm : (BitVec.ofNat 32 n).msb = false :=
    BitVec.msb_eq_false_iff_two_mul_lt.mpr (by simp only [BitVec.toNat_ofNat]; omega)
  apply BitVec.eq_of_toNat_eq
  simp only [IntOp.divsi, if_neg hcorner, BitVec.sdiv_eq, hm, show (128#32 : BitVec 32).msb = false from by decide,
    BitVec.udiv_eq, BitVec.toNat_udiv, BitVec.toNat_ofNat]
  rw [Nat.mod_eq_of_lt (show n < 2 ^ 32 by omega), Nat.mod_eq_of_lt (show 128 < 2 ^ 32 by norm_num),
    Nat.mod_eq_of_lt (show n / 128 < 2 ^ 32 by omega)]

/-- The signed remainder of a word below 2^31 by 128 meets no corner and is the natural remainder. -/
theorem remsi_128 (u : ArithUnit) (n : ℕ) (hn : n < 2 ^ 31) :
    IntOp.remsi u (BitVec.ofNat 32 n) 128#32 = BitVec.ofNat 32 (n % 128) := by
  have hcorner : ¬ IntOp.SDivCorner (BitVec.ofNat 32 n) 128#32 := by
    intro hc; rcases hc with hc | ⟨_, hc⟩ <;> exact absurd hc (by decide)
  have hm : (BitVec.ofNat 32 n).msb = false :=
    BitVec.msb_eq_false_iff_two_mul_lt.mpr (by simp only [BitVec.toNat_ofNat]; omega)
  apply BitVec.eq_of_toNat_eq
  simp only [IntOp.remsi, if_neg hcorner, BitVec.srem_eq, hm, show (128#32 : BitVec 32).msb = false from by decide,
    BitVec.umod_eq, BitVec.toNat_umod, BitVec.toNat_ofNat]
  rw [Nat.mod_eq_of_lt (show n < 2 ^ 32 by omega), Nat.mod_eq_of_lt (show 128 < 2 ^ 32 by norm_num),
    Nat.mod_eq_of_lt (show n % 128 < 2 ^ 32 by omega)]

/-! ## The graph number of a node -/

/-- The sign of the word 128 is 1. -/
theorem sign_128 : (if (128#32 : BitVec 32) = 0 then (0 : BitVec 32) else if (128#32 : BitVec 32).msb then -1 else 1) = 1#32 := by
  decide

/-- Node n's graph number is the word of n / 128: both n and 128 are non-negative, so the truncated quotient is
    the floor; the signs differ only at n = 0, where the remainder is zero, so the correction is never taken. -/
theorem gid_apply (n : Fin 131072) : Stages.gid (ix1 n) = BitVec.ofNat 32 (n.val / 128) := by
  have hn := n.isLt
  have hq : IntOp.divsi .host (BitVec.ofNat 32 n.val) 128#32 = BitVec.ofNat 32 (n.val / 128) :=
    divsi_128 _ _ (by omega)
  have hr : IntOp.remsi .host (BitVec.ofNat 32 n.val) 128#32 = BitVec.ofNat 32 (n.val % 128) :=
    remsi_128 _ _ (by omega)
  have e : Stages.gid (ix1 n)
      = Scalar.select
          (IntOp.andi
            (IntOp.cmpi .ne
              (if BitVec.ofNat 32 n.val = 0 then (0 : BitVec 32) else if (BitVec.ofNat 32 n.val).msb then -1 else 1)
              (if (128#32 : BitVec 32) = 0 then (0 : BitVec 32) else if (128#32 : BitVec 32).msb then -1 else 1))
            (IntOp.cmpi .ne (IntOp.remsi .host (BitVec.ofNat 32 n.val) 128#32) 0#32))
          (IntOp.subi (IntOp.divsi .host (BitVec.ofNat 32 n.val) 128#32) 1#32)
          (IntOp.divsi .host (BitVec.ofNat 32 n.val) 128#32) := rfl
  rw [e, sign_128, hq, hr]
  have hbit : IntOp.andi
      (IntOp.cmpi .ne
        (if BitVec.ofNat 32 n.val = 0 then (0 : BitVec 32) else if (BitVec.ofNat 32 n.val).msb then -1 else 1) 1#32)
      (IntOp.cmpi .ne (BitVec.ofNat 32 (n.val % 128)) 0#32) = 0#1 := by
    by_cases h0 : n.val = 0
    · have : BitVec.ofNat 32 (n.val % 128) = 0#32 := by rw [h0]
      rw [this]
      show _ &&& BitVec.ofBool ((0#32 : BitVec 32) != 0#32) = 0#1
      rw [show ((0#32 : BitVec 32) != 0#32) = false from by decide]
      exact BitVec.and_zero
    · have hne : ¬ BitVec.ofNat 32 n.val = 0 := by
        intro hc
        have h0' : (BitVec.ofNat 32 n.val).toNat = 0 := congrArg BitVec.toNat hc
        rw [BitVec.toNat_ofNat] at h0'
        omega
      have hm : (BitVec.ofNat 32 n.val).msb = false :=
        BitVec.msb_eq_false_iff_two_mul_lt.mpr (by simp only [BitVec.toNat_ofNat]; omega)
      rw [if_neg hne, hm]
      show BitVec.ofBool ((1 : BitVec 32) != 1#32) &&& _ = 0#1
      rw [show ((1 : BitVec 32) != 1#32) = false from by decide]
      exact BitVec.zero_and
  rw [hbit, select_zero]

/-- Read signed, a node's graph number is n / 128. -/
theorem gid_toInt (n : Fin 131072) : (Stages.gid (ix1 n)).toInt = ((n.val / 128 : ℕ) : Int) := by
  have hn := n.isLt
  rw [gid_apply, StableHlo.Predicate.toInt_ofNat_small _ (by omega)]

/-- A vector as a one-column array reads, at (n, 0), the vector at n. -/
theorem col_apply {α : Type} (v : S131072.Idx → α) (n : Fin 131072) :
    broadcastInDim S131072x1 ![0] Facts₀.bcast_S131072_S131072x1_0 v (ix2 n (0 : Fin 1)) = v (ix1 n) := by
  simp only [broadcastInDim]
  congr 1
  funext a
  match a with
  | ⟨0, _⟩ =>
    apply Fin.ext
    split
    · next h1 => change (131072 : ℕ) = 1 at h1; omega
    · rfl

/-! ## The sum over a graph's nodes -/

/-- Summing over the nodes whose number divided by 128 is g is summing over the 128 nodes 128 g + j. -/
theorem sum_block {M : Type*} [AddCommMonoid M] (f : Fin 131072 → M) (g : Fin 1024) :
    (∑ n : Fin 131072, if n.val / 128 = g.val then f n else 0)
      = ∑ j : Fin 128, f ⟨128 * g.val + j.val, by have := g.isLt; have := j.isLt; omega⟩ := by
  rw [← Finset.sum_filter]
  refine Finset.sum_nbij' (fun n => (⟨n.val % 128, Nat.mod_lt _ (by norm_num)⟩ : Fin 128))
    (fun j => (⟨128 * g.val + j.val, by have := g.isLt; have := j.isLt; omega⟩ : Fin 131072)) ?_ ?_ ?_ ?_ ?_
  · intro a _; exact Finset.mem_univ _
  · intro j _
    simp only [Finset.mem_filter, Finset.mem_univ, true_and]
    have := j.isLt; omega
  · intro a ha
    simp only [Finset.mem_filter, Finset.mem_univ, true_and] at ha
    apply Fin.ext; simp only; omega
  · intro j _
    apply Fin.ext; simp only; have := j.isLt; omega
  · intro a ha
    simp only [Finset.mem_filter, Finset.mem_univ, true_and] at ha
    congr 1; apply Fin.ext; simp only; omega

/-! ## The two literals -/

/-- The divisor's word denotes the real 128. -/
theorem ofBits_128 : Ideal.ofBits .f32 0x43000000#32 = ((128 : ℝ) : EReal) := by
  simp [Ideal.ofBits, Ideal.ieee, -EReal.coe_mul]; norm_num

/-- The factor's word denotes the real 1 / 128. -/
theorem ofBits_inv128 : Ideal.ofBits .f32 0x3C000000#32 = ((1 / 128 : ℝ) : EReal) := by
  simp [Ideal.ofBits, Ideal.ieee, -EReal.coe_mul]; norm_num

/-! ## The readout -/

/-- Graph g's mean of feature d: the sum of rows 128 g … 128 g + 127, times 2^-7. -/
theorem pool_apply (h : FVec Ideal S131072x128 .f32) (g : Fin 1024) (d : Fin 128) :
    Stages.pool (F := Ideal) h (ix2 g d)
      = (∑ j : Fin 128, h (ix2 (⟨128 * g.val + j.val, by have := g.isLt; have := j.isLt; omega⟩ : Fin 131072) d))
          * Ideal.ofBits .f32 0x3C000000#32 := by
  have e : Stages.pool (F := Ideal) h (ix2 g d)
      = Ideal.div
          (Ideal.hostScatterAdd
            (ScatterRows.rowDims 1024 131072 128 Facts₀.scatter_S1024x128_S131072x1_S131072x128_1_0_0_1_wf)
            (fun _ => Ideal.ofBits .f32 0x00000000#32)
            (broadcastInDim S131072x1 ![0] Facts₀.bcast_S131072_S131072x1_0 Stages.gid) h (ix2 g d))
          (Ideal.ofBits .f32 0x43000000#32) := rfl
  rw [e, ScatterRows.scatterAdd_rows_apply, Ideal.ofBits_zero_f32, zero_add]
  have hsum : (∑ n : Fin 131072,
        if (broadcastInDim S131072x1 ![0] Facts₀.bcast_S131072_S131072x1_0 Stages.gid (ix2 n (0 : Fin 1))).toInt = (g.val : Int)
          then h (ix2 n d) else 0)
      = ∑ n : Fin 131072, if n.val / 128 = g.val then h (ix2 n d) else 0 := by
    refine Finset.sum_congr rfl fun n _ => ?_
    rw [col_apply, gid_toInt]
    by_cases hc : n.val / 128 = g.val
    · rw [if_pos hc, if_pos (by exact_mod_cast hc)]
    · rw [if_neg hc, if_neg (by exact_mod_cast hc)]
  rw [hsum, sum_block (fun n => h (ix2 n d)) g, ofBits_128, ofBits_inv128, Ideal.div_coe (by norm_num)]

end Cert.ReferenceIdeal.PoolSum

end
-- ==== Proof.RegPool.lean ====
/-
  Region 2 of the kernel: each grid point takes 16384 rows (128 graphs of 128 nodes), sums every graph's rows,
  scales by 2^-7 and applies the two dense layers; the array it leaves is the reference's readout and head.

  At grid point t the body's result at (g', q) is
    ∑ k2, (∑ k1, ((∑ j, x (16384 t + 128 g' + j, k1)) * 2^-7) * Wlin (k1, k2)) * Wcls (k2, q),
  and the reference's readout and head at (g, q) is
    ∑ k2, (∑ k1, ((∑ j, x (128 g + j, k1)) * 2^-7) * Wlin (k1, k2)) * Wcls (k2, q);
  with g = 128 t + g' the two row numbers agree. Point t writes rows 128 t … 128 t + 127 of the output, and the
  eight points' blocks cover its 1024 rows.
-/
import proofs.«115493_j8117488190078_1_alg».proof.Proof.Gen.KernelIdeal.Frame
import proofs.«115493_j8117488190078_1_alg».proof.Proof.Stages
import proofs.«115493_j8117488190078_1_alg».proof.Proof.LibPlainDot
import proofs.«115493_j8117488190078_1_alg».proof.Proof.PoolSum

set_option maxRecDepth 16384

noncomputable section

open scoped BigOperators

namespace Cert.KernelIdeal.RegValue

open Idealize.ShloMosaic Idealize.ShloMosaic.TcCoe Idealize.ShloMosaic.ValueIdx Cert.KernelIdeal Cert.KernelIdeal.Gen
open Idealize.SL.Sem

/-! ## The four matrix products are plain: rows of the left operand against columns of the right one -/

/-- The body's first product, [128, 128] by [128, 64]. -/
theorem plain_lin : PlainDot.IsPlain dot_S128x128_S128x64_S128x64_1_0_0_1_n_n := ⟨rfl, rfl, rfl, rfl, rfl, rfl⟩
/-- The body's second product, [128, 64] by [64, 16]. -/
theorem plain_cls : PlainDot.IsPlain dot_S128x64_S64x16_S128x16_1_0_0_1_n_n := ⟨rfl, rfl, rfl, rfl, rfl, rfl⟩
/-- The reference's first product, [1024, 128] by [128, 64]. -/
theorem plain_refLin : PlainDot.IsPlain Cert.ReferenceIdeal.dot_S1024x128_S128x64_S1024x64_1_0_0_1_n_n := ⟨rfl, rfl, rfl, rfl, rfl, rfl⟩
/-- The reference's second product, [1024, 64] by [64, 16]. -/
theorem plain_refCls : PlainDot.IsPlain Cert.ReferenceIdeal.dot_S1024x64_S64x16_S1024x16_1_0_0_1_n_n := ⟨rfl, rfl, rfl, rfl, rfl, rfl⟩

/-! ## The body's result at an entry -/

/-- The block of 16384 rows seen as 128 graphs of 128 nodes and summed over the nodes: at (g, d) the sum of rows
    128 g … 128 g + 127 of column d (entry (g, j, d) of the reshaped block is entry (128 g + j, d) of the block, both at
    row-major position (128 g + j) 128 + d; the sum starts from zero). -/
theorem rowsum_apply (x0 : FVec Ideal S16384x128 .f32) (g d : Fin 128) :
    multiReduction (F := Ideal) .add [1] S128x128
        (shapeCast S128x128x128 (shapeCast S16384x128 x0 shapeCasts_S16384x128_S16384x128) shapeCasts_S16384x128_S128x128x128)
        0x00000000#32 reduces_S128x128x128_S128x128 (.inl rfl) rfl (ix2 g d)
      = ∑ j : Fin 128, x0 (ix2 (⟨128 * g.val + j.val, by have := g.isLt; have := j.isLt; omega⟩ : Fin 16384) d) := by
  refine (Ideal.multiReduction_add_single _ _ _ _ _ (ix2 g d)).trans ?_
  refine Finset.sum_congr rfl fun j _ => ?_
  rw [shapeCast_self]
  refine shapeCast_apply _ _ _ _ ?_
  rw [Shape.rowMajor_val_two, Shape.rowMajor_val_three]
  show (128 * g.val + j.val) * 128 + d.val = (g.val * 128 + j.val) * 128 + d.val
  omega

/-- The body's result at (g, q): the graph's row sums times 2^-7, through the two dense layers (each product into a
    zero accumulator; the changes of format are the identity on the extended reals). -/
theorem pay_apply (x0 : Vec Ideal S16384x128 .f32) (x1 : Vec Ideal S128x64 .f32) (x2 : Vec Ideal S64x16 .f32) (g : Fin 128) (q : Fin 16) :
    k2_pay1 (F := Ideal) x0 x1 x2 (ix2 g q)
      = ∑ k2 : Fin 64, (∑ k1 : Fin 128, ((∑ j : Fin 128, x0 (ix2 (⟨128 * g.val + j.val, by have := g.isLt; have := j.isLt; omega⟩ : Fin 16384) k1))
            * Ideal.ofBits .f32 0x3C000000#32) * x1 (ix2 k1 k2)) * x2 (ix2 k2 q) := by
  unfold k2_pay1
  refine (PlainDot.matmul_zero_apply plain_cls none _ _ g q).trans ?_
  refine Finset.sum_congr rfl fun k2 _ => ?_
  rw [truncf_apply, truncf_apply]
  refine congrArg (· * x2 (ix2 k2 q)) ?_
  refine (PlainDot.matmul_zero_apply plain_lin none _ _ g k2).trans ?_
  refine Finset.sum_congr rfl fun k1 _ => ?_
  rw [truncf_apply, truncf_apply, mulf_apply, rowsum_apply]
  rfl

/-! ## The reference's readout and head at an entry -/

/-- The head of the pooled features at (g, q): graph g's row sums times 2^-7, through the two dense layers. -/
theorem head_pool_apply (X : FVec Ideal Cert.ReferenceIdeal.S131072x128 .f32) (wl : FVec Ideal Cert.ReferenceIdeal.S128x64 .f32)
    (wc : FVec Ideal Cert.ReferenceIdeal.S64x16 .f32) (g : Fin 1024) (q : Fin 16) :
    Cert.ReferenceIdeal.Stages.head (F := Ideal) (Cert.ReferenceIdeal.Stages.pool (F := Ideal) X) wl wc (ix2 g q)
      = ∑ k2 : Fin 64, (∑ k1 : Fin 128, ((∑ j : Fin 128, X (ix2 (⟨128 * g.val + j.val, by have := g.isLt; have := j.isLt; omega⟩ : Fin 131072) k1))
            * Ideal.ofBits .f32 0x3C000000#32) * wl (ix2 k1 k2)) * wc (ix2 k2 q) := by
  unfold Cert.ReferenceIdeal.Stages.head
  refine (PlainDot.dotGeneral_apply plain_refCls none .single _ _ g q).trans ?_
  refine Finset.sum_congr rfl fun k2 _ => ?_
  refine congrArg (· * wc (ix2 k2 q)) ?_
  refine (PlainDot.dotGeneral_apply plain_refLin none .single _ _ g k2).trans ?_
  refine Finset.sum_congr rfl fun k1 _ => ?_
  rw [Cert.ReferenceIdeal.PoolSum.pool_apply]

/-! ## One grid point -/

/-- When the block x0 is rows 16384 t … 16384 t + 16383 of the array X, the body's result at (g, q) is the reference's
    readout and head of X at (128 t + g, q): row 16384 t + (128 g + j) is row 128 (128 t + g) + j. -/
theorem point_eq (X : FVec Ideal S131072x128 .f32) (wl : FVec Ideal S128x64 .f32) (wc : FVec Ideal S64x16 .f32)
    (x0 : Vec Ideal S16384x128 .f32) (t : Nat) (ht : t < 8)
    (hx0 : ∀ (r : Fin 16384) (d : Fin 128), x0 (ix2 r d) = X (ix2 (⟨16384 * t + r.val, by have := r.isLt; omega⟩ : Fin 131072) d))
    (g : Fin 128) (q : Fin 16) :
    k2_pay1 (F := Ideal) x0 wl wc (ix2 g q)
      = Cert.ReferenceIdeal.Stages.head (F := Ideal) (Cert.ReferenceIdeal.Stages.pool (F := Ideal) X) wl wc
          (ix2 (⟨128 * t + g.val, by have := g.isLt; omega⟩ : Fin 1024) q) := by
  rw [pay_apply, head_pool_apply]
  refine Finset.sum_congr rfl fun k2 _ => ?_
  refine congrArg (· * wc (ix2 k2 q)) ?_
  refine Finset.sum_congr rfl fun k1 _ => ?_
  refine congrArg (· * wl (ix2 k1 k2)) ?_
  refine congrArg (· * Ideal.ofBits .f32 0x3C000000#32) ?_
  refine Finset.sum_congr rfl fun j _ => ?_
  rw [hx0]
  refine congrArg X ?_
  refine congrArg (fun r => ix2 r k1) (Fin.ext ?_)
  show 16384 * t + (128 * g.val + j.val) = 128 * (128 * t + g.val) + j.val
  omega

/-! ## The windows' blocks, and the output array -/

variable (V : (c : Dev nD) → (b : Ref sig .tc) → Buf (Elt Ideal) ((c : Thread nD τ).loc b))

/-- The zero offsets of an access to a whole block. -/
theorem zero_offsets : (![0, 0] : Fin 2 → Nat) = fun _ => 0 := funext fun a => by fin_cases a <;> rfl

/-- The windows' block indices at every point of the grid: the node features and the output move with the point
    along the rows, the two weight matrices stay at block (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The node features' block at point t is rows 16384 t … 16384 t + 16383 of the array. -/
theorem rows_block (c : Dev nD) (t : Fin cfg2.N) (r : Fin 16384) (d : Fin 128) :
    (iblk2 V c 0 t : Vec Ideal S16384x128 .f32) (ix2 r d)
      = (V c main_v57 : S131072x128.Idx → Elt Ideal .f32) (ix2 (⟨16384 * t.val + r.val, by have := r.isLt; have : t.val < 8 := t.isLt; omega⟩ : Fin 131072) d) := by
  obtain ⟨e0, e1, -⟩ := block_indices t
  unfold iblk2
  rw [View.read_apply]
  show V c main_v57 _ = V c main_v57 _
  congr 1
  funext a
  apply Fin.ext
  match a with
  | ⟨0, _⟩ => show win2_0.index t (0 : Fin 2) * 16384 + 1 * r.val = 16384 * t.val + r.val; rw [e0]; omega
  | ⟨1, _⟩ => show win2_0.index t (1 : Fin 2) * 128 + 1 * d.val = d.val; rw [e1]; omega

/-- The first dense layer's block at every point is the whole weight matrix. -/
theorem lin_block (c : Dev nD) (t : Fin cfg2.N) :
    (iblk2 V c 1 t : Vec Ideal S128x64 .f32) = (V c main_arg4 : S128x64.Idx → Elt Ideal .f32) := by
  obtain ⟨-, -, e0, e1, -⟩ := block_indices t
  funext y
  unfold iblk2
  rw [View.read_apply]
  show V c main_arg4 _ = V c main_arg4 _
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

/-- The second dense layer's block at every point is the whole weight matrix. -/
theorem cls_block (c : Dev nD) (t : Fin cfg2.N) :
    (iblk2 V c 2 t : Vec Ideal S64x16 .f32) = (V c main_arg5 : S64x16.Idx → Elt Ideal .f32) := by
  obtain ⟨-, -, -, -, e0, e1, -⟩ := block_indices t
  funext y
  unfold iblk2
  rw [View.read_apply]
  show V c main_arg5 _ = V c main_arg5 _
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 16 + 1 * (y 1).val = (y 1).val; rw [e1]; omega

/-- What point t writes back is rows 128 t … 128 t + 127 of the reference's readout and head. -/
theorem flushed_eq (c : Dev nD) (t : Fin cfg2.N) :
    (dat2 (F := Ideal) V c).flushed 3 t
      = ((cfg2.win 3).blk t).view.read (Elt Ideal)
          (Cert.ReferenceIdeal.Stages.head (F := Ideal) (Cert.ReferenceIdeal.Stages.pool (F := Ideal) (V c main_v57)) (V c main_arg4) (V c main_arg5)) := by
  show (cfg2.win 3).cut (grid2.coords t) ((dat2 V c).after 3 t) = _
  rw [after2_3]
  unfold out2_3
  rw [View.canon_unit_zero zero_offsets]
  simp only [View.ld_unit_zero (S := S16384x128) zero_offsets, View.ld_unit_zero (S := S128x64) zero_offsets, View.ld_unit_zero (S := S64x16) zero_offsets]
  rw [lin_block, cls_block]
  obtain ⟨-, -, -, -, -, -, e0, e1⟩ := block_indices t
  funext y
  obtain ⟨g, q, rfl⟩ : ∃ (g : Fin 128) (q : Fin 16), y = ix2 g q := ⟨y 0, y 1, eq_ix2 y⟩
  have ht : t.val < 8 := t.isLt
  refine (point_eq (V c main_v57) (V c main_arg4) (V c main_arg5) _ t.val ht (fun r d => rows_block V c t r d) g q).trans ?_
  rw [View.read_apply]
  refine congrArg _ ?_
  funext a
  apply Fin.ext
  match a with
  | ⟨0, _⟩ => show 128 * t.val + g.val = win2_3.index t (0 : Fin 2) * 128 + 1 * g.val; rw [e0]; omega
  | ⟨1, _⟩ => show q.val = win2_3.index t (1 : Fin 2) * 16 + 1 * q.val; rw [e1]; omega

/-- An index of the output array is in point t's block iff each coordinate is in the block's range on its axis. -/
theorem mem_block (t : Fin cfg2.N) (i : S1024x16.Idx) :
    i ∈ ((cfg2.win 3).blk t).view.set ↔ ∀ a : Fin 2, win2_3.index t a * S128x16.size a ≤ (i a).val ∧ (i a).val < win2_3.index t a * S128x16.size a + S128x16.size a := by
  show i ∈ ((View.whole main_v58).slice (win2_3.rect t)).set ↔ _
  rw [View.set_slice_whole, Rect.mem_set_unit]
  exact Iff.rfl

/-- Row r of the output lies in the block of point r / 128, which writes its block back. -/
theorem covered (i : S1024x16.Idx) : ∃ t : Fin cfg2.N, (cfg2.win 3).flush t = true ∧ i ∈ ((cfg2.win 3).blk t).view.set := by
  have hi0 : (i 0).val < 1024 := (i 0).isLt
  have hi1 : (i 1).val < 16 := (i 1).isLt
  refine ⟨⟨(i 0).val / 128, by show (i 0).val / 128 < 8; omega⟩, flush2_3 _, ?_⟩
  rw [mem_block]
  obtain ⟨-, -, -, -, -, -, e0, e1⟩ := block_indices ⟨(i 0).val / 128, by show (i 0).val / 128 < 8; omega⟩
  intro a
  match a with
  | ⟨0, _⟩ => show win2_3.index _ (0 : Fin 2) * 128 ≤ (i 0).val ∧ (i 0).val < win2_3.index _ (0 : Fin 2) * 128 + 128; rw [e0]; show (i 0).val / 128 * 128 ≤ (i 0).val ∧ (i 0).val < (i 0).val / 128 * 128 + 128; omega
  | ⟨1, _⟩ => show win2_3.index _ (1 : Fin 2) * 16 ≤ (i 1).val ∧ (i 1).val < win2_3.index _ (1 : Fin 2) * 16 + 16; rw [e1]; omega

/-- Region 2 leaves in its output array the head applied to the pooled features of its first input array. -/
theorem reg2_value (c : Dev nD) :
    (dat2 (F := Ideal) V c).arrAt 3 cfg2.N
      = Cert.ReferenceIdeal.Stages.head (F := Ideal) (Cert.ReferenceIdeal.Stages.pool (F := Ideal) (V c main_v57)) (V c main_arg4) (V c main_arg5) :=
  (dat2 (F := Ideal) V c).arrAt_eq_of_cover 3 _ (fun t _ => flushed_eq V c t) covered

end Cert.KernelIdeal.RegValue

end
-- ==== Proof.KChain.lean ====
/-
  What the kernel's program leaves in its result array, as a function of its arguments.
  Between the launch and the return the program alternates stretches of host operations with three kernel regions.
  Each stretch is read one operation at a time from the buffer contents it starts from; each region leaves in its
  output array the whole-array function the region lemmas state. Threading the contents through the boundaries gives:
  the degrees' inverse square roots, layer 1's aggregate, region 0's rectified projection, the rescaled hidden
  features, region 1's projection, layer 2's aggregate and rectifier, region 2's readout and head — the very stages
  the reference computes, so the result is the reference's function of the arguments.
-/
import proofs.«115493_j8117488190078_1_alg».proof.Proof.Gen.KernelIdeal.Frame
import proofs.«115493_j8117488190078_1_alg».proof.Proof.Stages
import proofs.«115493_j8117488190078_1_alg».proof.Proof.RegProj
import proofs.«115493_j8117488190078_1_alg».proof.Proof.RegPool
import Idealize.ShloMosaic.Lib.StableHlo.Run

set_option maxRecDepth 16384

noncomputable section

namespace Cert.KernelIdeal.KChain

open Idealize.ShloMosaic Idealize.ShloMosaic.TcCoe Idealize.SL.Sem
open Cert.KernelIdeal Cert.KernelIdeal.Gen
open Cert.ReferenceIdeal (Stages.invDeg Stages.wrapIdx Stages.agg1 Stages.leaky256 Stages.scaleOut256 Stages.agg2pre
  Stages.leaky128 Stages.agg2 Stages.pool Stages.head Stages.layer1 Stages.proj2 Stages.result)

/-- One stretch of host operations read at a buffer: unfold the stretch, then every operation's result. -/
local macro "read_stretch" : tactic =>
  `(tactic| (dsimp only [hostOps0, hostOps0_1, hostOps0_2, hostOps0_3, hostOps0_4, hostOps1, hostOps2, hostOps2_1]
             after_results_simp))

/-! ## Each stretch, from any contents `Wv` -/

section Stretches

variable (Wv : Valuation τ sig (Elt Ideal))

/-- The count of edges leaving each node. -/
theorem outCount : StableHlo.after hostOps0 Wv (Proc.devRef .tc main_v3)
    = Host.scatterAdd (F := Ideal) scatter_S131072_S1048576x1_S1048576_n_0_0_1
        (broadcastInDim S131072 ![] bcast_S_S131072 (constant S_ .f32 0x00000000#32))
        (broadcastInDim S1048576x1 ![0] bcast_S1048576_S1048576x1_0 (Wv (Proc.devRef .tc main_arg6)))
        (broadcastInDim S1048576 ![] bcast_S_S1048576 (constant S_ .f32 0x3F800000#32)) := by
  read_stretch

/-- The vector of ones the counts add up. -/
theorem onesVec : StableHlo.after hostOps0 Wv (Proc.devRef .tc main_v0)
    = broadcastInDim (α := Ideal .f32) S1048576 ![] bcast_S_S1048576 (constant S_ .f32 0x3F800000#32) := by
  read_stretch

/-- The lower clamp 1 of the out-degree. -/
theorem clampOut : StableHlo.after hostOps0 Wv (Proc.devRef .tc main_cst_1) = constant (F := Ideal) S_ .f32 0x3F800000#32 := by
  read_stretch

theorem keep0_arg7 : StableHlo.after hostOps0 Wv (Proc.devRef .tc main_arg7) = Wv (Proc.devRef .tc main_arg7) := by read_stretch
theorem keep0_arg0 : StableHlo.after hostOps0 Wv (Proc.devRef .tc main_arg0) = Wv (Proc.devRef .tc main_arg0) := by read_stretch
theorem keep0_arg1 : StableHlo.after hostOps0 Wv (Proc.devRef .tc main_arg1) = Wv (Proc.devRef .tc main_arg1) := by read_stretch
theorem keep0_arg6 : StableHlo.after hostOps0 Wv (Proc.devRef .tc main_arg6) = Wv (Proc.devRef .tc main_arg6) := by read_stretch

/-- The clamped out-degree. -/
theorem clippedOut : StableHlo.after hostOps0_1 Wv (Proc.devRef .tc main_v4)
    = maximumf (F := Ideal) (φ := .f32) (broadcastInDim S131072 ![] bcast_S_S131072 (id (Wv (Proc.devRef .tc main_cst_1))))
        (Wv (Proc.devRef .tc main_v3)) := by
  read_stretch
  rfl

theorem keep1_v0 : StableHlo.after hostOps0_1 Wv (Proc.devRef .tc main_v0) = Wv (Proc.devRef .tc main_v0) := by read_stretch
theorem keep1_arg7 : StableHlo.after hostOps0_1 Wv (Proc.devRef .tc main_arg7) = Wv (Proc.devRef .tc main_arg7) := by read_stretch
theorem keep1_arg0 : StableHlo.after hostOps0_1 Wv (Proc.devRef .tc main_arg0) = Wv (Proc.devRef .tc main_arg0) := by read_stretch
theorem keep1_arg1 : StableHlo.after hostOps0_1 Wv (Proc.devRef .tc main_arg1) = Wv (Proc.devRef .tc main_arg1) := by read_stretch
theorem keep1_arg6 : StableHlo.after hostOps0_1 Wv (Proc.devRef .tc main_arg6) = Wv (Proc.devRef .tc main_arg6) := by read_stretch

/-- The count of edges entering each node. -/
theorem inCount : StableHlo.after hostOps0_2 Wv (Proc.devRef .tc main_v7)
    = Host.scatterAdd (F := Ideal) scatter_S131072_S1048576x1_S1048576_n_0_0_1
        (broadcastInDim S131072 ![] bcast_S_S131072 (constant S_ .f32 0x00000000#32))
        (broadcastInDim S1048576x1 ![0] bcast_S1048576_S1048576x1_0 (Wv (Proc.devRef .tc main_arg7)))
        (Wv (Proc.devRef .tc main_v0)) := by
  read_stretch

/-- The lower clamp 1 of the in-degree. -/
theorem clampIn : StableHlo.after hostOps0_2 Wv (Proc.devRef .tc main_cst_3) = constant (F := Ideal) S_ .f32 0x3F800000#32 := by
  read_stretch

theorem keep2_v4 : StableHlo.after hostOps0_2 Wv (Proc.devRef .tc main_v4) = Wv (Proc.devRef .tc main_v4) := by read_stretch
theorem keep2_arg7 : StableHlo.after hostOps0_2 Wv (Proc.devRef .tc main_arg7) = Wv (Proc.devRef .tc main_arg7) := by read_stretch
theorem keep2_arg0 : StableHlo.after hostOps0_2 Wv (Proc.devRef .tc main_arg0) = Wv (Proc.devRef .tc main_arg0) := by read_stretch
theorem keep2_arg1 : StableHlo.after hostOps0_2 Wv (Proc.devRef .tc main_arg1) = Wv (Proc.devRef .tc main_arg1) := by read_stretch
theorem keep2_arg6 : StableHlo.after hostOps0_2 Wv (Proc.devRef .tc main_arg6) = Wv (Proc.devRef .tc main_arg6) := by read_stretch

/-- The clamped in-degree. -/
theorem clippedIn : StableHlo.after hostOps0_3 Wv (Proc.devRef .tc main_v8)
    = maximumf (F := Ideal) (φ := .f32) (broadcastInDim S131072 ![] bcast_S_S131072 (id (Wv (Proc.devRef .tc main_cst_3))))
        (Wv (Proc.devRef .tc main_v7)) := by
  read_stretch
  rfl

theorem keep3_v4 : StableHlo.after hostOps0_3 Wv (Proc.devRef .tc main_v4) = Wv (Proc.devRef .tc main_v4) := by read_stretch
theorem keep3_arg7 : StableHlo.after hostOps0_3 Wv (Proc.devRef .tc main_arg7) = Wv (Proc.devRef .tc main_arg7) := by read_stretch
theorem keep3_arg0 : StableHlo.after hostOps0_3 Wv (Proc.devRef .tc main_arg0) = Wv (Proc.devRef .tc main_arg0) := by read_stretch
theorem keep3_arg1 : StableHlo.after hostOps0_3 Wv (Proc.devRef .tc main_arg1) = Wv (Proc.devRef .tc main_arg1) := by read_stretch
theorem keep3_arg6 : StableHlo.after hostOps0_3 Wv (Proc.devRef .tc main_arg6) = Wv (Proc.devRef .tc main_arg6) := by read_stretch

/-- deg_out^(-1/2) from the clamped out-degree. -/
theorem invOut : StableHlo.after hostOps0_4 Wv (Proc.devRef .tc main_v10)
    = Host.powf (F := Ideal) (φ := .f32) (Wv (Proc.devRef .tc main_v4))
        (broadcastInDim S131072 ![] bcast_S_S131072 (constant S_ .f32 0xBF000000#32)) := by
  read_stretch

/-- deg_in^(-1/2) from the clamped in-degree. -/
theorem invIn : StableHlo.after hostOps0_4 Wv (Proc.devRef .tc main_v12)
    = Host.powf (F := Ideal) (φ := .f32) (Wv (Proc.devRef .tc main_v8))
        (broadcastInDim S131072 ![] bcast_S_S131072 (constant S_ .f32 0xBF000000#32)) := by
  read_stretch

/-- Layer 1's aggregate from the two clamped degrees and the arguments. -/
theorem aggregate1 : StableHlo.after hostOps0_4 Wv (Proc.devRef .tc main_v31)
    = mulf (F := Ideal) (φ := .f32)
        (Host.scatterAdd scatter_S131072x64_S1048576x1_S1048576x64_1_0_0_1
          (broadcastInDim S131072x64 ![] bcast_S_S131072x64 (constant S_ .f32 0x00000000#32))
          (broadcastInDim S1048576x1 ![0] bcast_S1048576_S1048576x1_0 (Wv (Proc.devRef .tc main_arg7)))
          (mulf
            (Host.gather gather_S131072x64_S1048576x1_S1048576x64_1_0_n_n_0_1_164
              (mulf (Wv (Proc.devRef .tc main_arg0)) (broadcastInDim S131072x64 ![0, 1] bcast_S131072x1_S131072x64_0_1
                (broadcastInDim S131072x1 ![0] bcast_S131072_S131072x1_0
                  (Host.powf (Wv (Proc.devRef .tc main_v4)) (broadcastInDim S131072 ![] bcast_S_S131072 (constant S_ .f32 0xBF000000#32))))))
              (broadcastInDim S1048576x1 ![0] bcast_S1048576_S1048576x1_0
                (select (cmpi .slt (Wv (Proc.devRef .tc main_arg6)) (broadcastInDim S1048576 ![] bcast_S_S1048576 (constantI S_ 32 0#32)))
                  (addi (Wv (Proc.devRef .tc main_arg6)) (broadcastInDim S1048576 ![] bcast_S_S1048576 (constantI S_ 32 131072#32)))
                  (Wv (Proc.devRef .tc main_arg6)))))
            (broadcastInDim S1048576x64 ![0, 1] bcast_S1048576x1_S1048576x64_0_1
              (broadcastInDim S1048576x1 ![0] bcast_S1048576_S1048576x1_0 (Wv (Proc.devRef .tc main_arg1))))))
        (broadcastInDim S131072x64 ![0, 1] bcast_S131072x1_S131072x64_0_1
          (broadcastInDim S131072x1 ![0] bcast_S131072_S131072x1_0
            (Host.powf (Wv (Proc.devRef .tc main_v8)) (broadcastInDim S131072 ![] bcast_S_S131072 (constant S_ .f32 0xBF000000#32))))) := by
  read_stretch

end Stretches

/-- Layer 2's aggregate before the rectifier, from the projected features, the edge weights, the edges' ends and
    deg_in^(-1/2): gather the sources' rows, weigh them, sum them into the destinations, scale. -/
def aggregate2Of (b : FVec Ideal S131072x128 .f32) (ew : FVec Ideal S1048576 .f32) (src dst : IVec S1048576 32)
    (inv : FVec Ideal S131072 .f32) : FVec Ideal S131072x128 .f32 :=
  mulf
    (Host.scatterAdd scatter_S131072x128_S1048576x1_S1048576x128_1_0_0_1
      (broadcastInDim S131072x128 ![] bcast_S_S131072x128 (constant S_ .f32 0x00000000#32))
      (broadcastInDim S1048576x1 ![0] bcast_S1048576_S1048576x1_0 dst)
      (mulf
        (Host.gather gather_S131072x128_S1048576x1_S1048576x128_1_0_n_n_0_1_1128 b
          (broadcastInDim S1048576x1 ![0] bcast_S1048576_S1048576x1_0
            (select (cmpi .slt src (broadcastInDim S1048576 ![] bcast_S_S1048576 (constantI S_ 32 0#32)))
              (addi src (broadcastInDim S1048576 ![] bcast_S_S1048576 (constantI S_ 32 131072#32))) src)))
        (broadcastInDim S1048576x128 ![0, 1] bcast_S1048576x1_S1048576x128_0_1
          (broadcastInDim S1048576x1 ![0] bcast_S1048576_S1048576x1_0 ew))))
    (broadcastInDim S131072x128 ![0, 1] bcast_S131072x1_S131072x128_0_1
      (broadcastInDim S131072x1 ![0] bcast_S131072_S131072x1_0 inv))

section Stretches2

variable (Wv : Valuation τ sig (Elt Ideal))

/-- The hidden features rescaled by deg_out^(-1/2). -/
theorem rescaled : StableHlo.after hostOps1 Wv (Proc.devRef .tc main_v35)
    = mulf (F := Ideal) (φ := .f32) (Wv (Proc.devRef .tc main_v32))
        (broadcastInDim S131072x256 ![0, 1] bcast_S131072x1_S131072x256_0_1
          (broadcastInDim S131072x1 ![0] bcast_S131072_S131072x1_0 (Wv (Proc.devRef .tc main_v10)))) := by
  read_stretch

theorem keepB_v12 : StableHlo.after hostOps1 Wv (Proc.devRef .tc main_v12) = Wv (Proc.devRef .tc main_v12) := by read_stretch
theorem keepB_arg1 : StableHlo.after hostOps1 Wv (Proc.devRef .tc main_arg1) = Wv (Proc.devRef .tc main_arg1) := by read_stretch
theorem keepB_arg3 : StableHlo.after hostOps1 Wv (Proc.devRef .tc main_arg3) = Wv (Proc.devRef .tc main_arg3) := by read_stretch
theorem keepB_arg4 : StableHlo.after hostOps1 Wv (Proc.devRef .tc main_arg4) = Wv (Proc.devRef .tc main_arg4) := by read_stretch
theorem keepB_arg5 : StableHlo.after hostOps1 Wv (Proc.devRef .tc main_arg5) = Wv (Proc.devRef .tc main_arg5) := by read_stretch
theorem keepB_arg6 : StableHlo.after hostOps1 Wv (Proc.devRef .tc main_arg6) = Wv (Proc.devRef .tc main_arg6) := by read_stretch
theorem keepB_arg7 : StableHlo.after hostOps1 Wv (Proc.devRef .tc main_arg7) = Wv (Proc.devRef .tc main_arg7) := by read_stretch

/-- Layer 2's aggregate before the rectifier. -/
theorem aggregate2 : StableHlo.after hostOps2 Wv (Proc.devRef .tc main_v52)
    = aggregate2Of (Wv (Proc.devRef .tc main_v36)) (Wv (Proc.devRef .tc main_arg1)) (Wv (Proc.devRef .tc main_arg6))
        (Wv (Proc.devRef .tc main_arg7)) (Wv (Proc.devRef .tc main_v12)) := by
  read_stretch
  rfl

/-- Where the aggregate is non-negative. -/
theorem nonneg2 : StableHlo.after hostOps2 Wv (Proc.devRef .tc main_v54)
    = cmpf (F := Ideal) (φ := .f32) .oge
        (aggregate2Of (Wv (Proc.devRef .tc main_v36)) (Wv (Proc.devRef .tc main_arg1)) (Wv (Proc.devRef .tc main_arg6))
          (Wv (Proc.devRef .tc main_arg7)) (Wv (Proc.devRef .tc main_v12)))
        (broadcastInDim S131072x128 ![] bcast_S_S131072x128 (constant S_ .f32 0x00000000#32)) := by
  read_stretch
  rfl

/-- The aggregate times the rectifier's slope. -/
theorem sloped2 : StableHlo.after hostOps2 Wv (Proc.devRef .tc main_v56)
    = mulf (F := Ideal) (φ := .f32) (broadcastInDim S131072x128 ![] bcast_S_S131072x128 (constant S_ .f32 0x3C23D70A#32))
        (aggregate2Of (Wv (Proc.devRef .tc main_v36)) (Wv (Proc.devRef .tc main_arg1)) (Wv (Proc.devRef .tc main_arg6))
          (Wv (Proc.devRef .tc main_arg7)) (Wv (Proc.devRef .tc main_v12))) := by
  read_stretch
  rfl

theorem keepC_arg4 : StableHlo.after hostOps2 Wv (Proc.devRef .tc main_arg4) = Wv (Proc.devRef .tc main_arg4) := by read_stretch
theorem keepC_arg5 : StableHlo.after hostOps2 Wv (Proc.devRef .tc main_arg5) = Wv (Proc.devRef .tc main_arg5) := by read_stretch

/-- The rectifier's choice between the aggregate and its sloped copy. -/
theorem rectified2 : StableHlo.after hostOps2_1 Wv (Proc.devRef .tc main_v57)
    = select (α := Ideal .f32) (Wv (Proc.devRef .tc main_v54)) (Wv (Proc.devRef .tc main_v52)) (Wv (Proc.devRef .tc main_v56)) := by
  read_stretch
  rfl

theorem keepD_arg4 : StableHlo.after hostOps2_1 Wv (Proc.devRef .tc main_arg4) = Wv (Proc.devRef .tc main_arg4) := by read_stretch
theorem keepD_arg5 : StableHlo.after hostOps2_1 Wv (Proc.devRef .tc main_arg5) = Wv (Proc.devRef .tc main_arg5) := by read_stretch

end Stretches2

/-- The clamped count of the edges that end at each node: at least 1. -/
def clampedDeg (idx : IVec S1048576 32) : FVec Ideal S131072 .f32 :=
  maximumf (broadcastInDim S131072 ![] bcast_S_S131072 (id (constant S_ .f32 0x3F800000#32)))
    (Host.scatterAdd scatter_S131072_S1048576x1_S1048576_n_0_0_1
      (broadcastInDim S131072 ![] bcast_S_S131072 (constant S_ .f32 0x00000000#32))
      (broadcastInDim S1048576x1 ![0] bcast_S1048576_S1048576x1_0 idx)
      (broadcastInDim S1048576 ![] bcast_S_S1048576 (constant S_ .f32 0x3F800000#32)))

section KeepArgs

variable (Wv : Valuation τ sig (Elt Ideal))

/-! No operation before region 0 writes an argument array. -/
theorem keep5_arg1 : StableHlo.after hostOps0_4 (StableHlo.after hostOps0_3 (StableHlo.after hostOps0_2 (StableHlo.after hostOps0_1 (StableHlo.after hostOps0 Wv)))) (Proc.devRef .tc main_arg1) = Wv (Proc.devRef .tc main_arg1) := by read_stretch
theorem keep5_arg2 : StableHlo.after hostOps0_4 (StableHlo.after hostOps0_3 (StableHlo.after hostOps0_2 (StableHlo.after hostOps0_1 (StableHlo.after hostOps0 Wv)))) (Proc.devRef .tc main_arg2) = Wv (Proc.devRef .tc main_arg2) := by read_stretch
theorem keep5_arg3 : StableHlo.after hostOps0_4 (StableHlo.after hostOps0_3 (StableHlo.after hostOps0_2 (StableHlo.after hostOps0_1 (StableHlo.after hostOps0 Wv)))) (Proc.devRef .tc main_arg3) = Wv (Proc.devRef .tc main_arg3) := by read_stretch
theorem keep5_arg4 : StableHlo.after hostOps0_4 (StableHlo.after hostOps0_3 (StableHlo.after hostOps0_2 (StableHlo.after hostOps0_1 (StableHlo.after hostOps0 Wv)))) (Proc.devRef .tc main_arg4) = Wv (Proc.devRef .tc main_arg4) := by read_stretch
theorem keep5_arg5 : StableHlo.after hostOps0_4 (StableHlo.after hostOps0_3 (StableHlo.after hostOps0_2 (StableHlo.after hostOps0_1 (StableHlo.after hostOps0 Wv)))) (Proc.devRef .tc main_arg5) = Wv (Proc.devRef .tc main_arg5) := by read_stretch
theorem keep5_arg6 : StableHlo.after hostOps0_4 (StableHlo.after hostOps0_3 (StableHlo.after hostOps0_2 (StableHlo.after hostOps0_1 (StableHlo.after hostOps0 Wv)))) (Proc.devRef .tc main_arg6) = Wv (Proc.devRef .tc main_arg6) := by read_stretch
theorem keep5_arg7 : StableHlo.after hostOps0_4 (StableHlo.after hostOps0_3 (StableHlo.after hostOps0_2 (StableHlo.after hostOps0_1 (StableHlo.after hostOps0 Wv)))) (Proc.devRef .tc main_arg7) = Wv (Proc.devRef .tc main_arg7) := by read_stretch

end KeepArgs

/-! ## The contents at every boundary, as functions of the arguments -/

section Boundaries

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

theorem launch_arg (b : Ref sig .tc) : W0 m ρ c (Proc.devRef .tc b) = arg m c b := rfl

/-! After the first stretch. -/
theorem w1_cst1 : W1 m ρ c (Proc.devRef .tc main_cst_1) = constant (F := Ideal) S_ .f32 0x3F800000#32 := clampOut (W0 m ρ c)
theorem w1_v0 : W1 m ρ c (Proc.devRef .tc main_v0) = broadcastInDim (α := Ideal .f32) S1048576 ![] bcast_S_S1048576 (constant S_ .f32 0x3F800000#32) :=
  onesVec (W0 m ρ c)
theorem w1_v3 : W1 m ρ c (Proc.devRef .tc main_v3)
    = Host.scatterAdd (F := Ideal) scatter_S131072_S1048576x1_S1048576_n_0_0_1
        (broadcastInDim S131072 ![] bcast_S_S131072 (constant S_ .f32 0x00000000#32))
        (broadcastInDim S1048576x1 ![0] bcast_S1048576_S1048576x1_0 (arg m c main_arg6))
        (broadcastInDim S1048576 ![] bcast_S_S1048576 (constant S_ .f32 0x3F800000#32)) :=
  (outCount (W0 m ρ c)).trans (by rw [launch_arg])
theorem w1_arg0 : W1 m ρ c (Proc.devRef .tc main_arg0) = arg m c main_arg0 := (keep0_arg0 (W0 m ρ c)).trans (launch_arg m ρ c _)
theorem w1_arg1 : W1 m ρ c (Proc.devRef .tc main_arg1) = arg m c main_arg1 := (keep0_arg1 (W0 m ρ c)).trans (launch_arg m ρ c _)
theorem w1_arg6 : W1 m ρ c (Proc.devRef .tc main_arg6) = arg m c main_arg6 := (keep0_arg6 (W0 m ρ c)).trans (launch_arg m ρ c _)
theorem w1_arg7 : W1 m ρ c (Proc.devRef .tc main_arg7) = arg m c main_arg7 := (keep0_arg7 (W0 m ρ c)).trans (launch_arg m ρ c _)

/-! After the out-degree's clamp. -/
theorem w2_v4 : W2 m ρ c (Proc.devRef .tc main_v4) = clampedDeg (arg m c main_arg6) :=
  (clippedOut (W1 m ρ c)).trans (by rw [w1_cst1 m ρ c, w1_v3 m ρ c]; rfl)
theorem w2_v0 : W2 m ρ c (Proc.devRef .tc main_v0) = broadcastInDim (α := Ideal .f32) S1048576 ![] bcast_S_S1048576 (constant S_ .f32 0x3F800000#32) :=
  (keep1_v0 (W1 m ρ c)).trans (w1_v0 m ρ c)
theorem w2_arg0 : W2 m ρ c (Proc.devRef .tc main_arg0) = arg m c main_arg0 := (keep1_arg0 (W1 m ρ c)).trans (w1_arg0 m ρ c)
theorem w2_arg1 : W2 m ρ c (Proc.devRef .tc main_arg1) = arg m c main_arg1 := (keep1_arg1 (W1 m ρ c)).trans (w1_arg1 m ρ c)
theorem w2_arg6 : W2 m ρ c (Proc.devRef .tc main_arg6) = arg m c main_arg6 := (keep1_arg6 (W1 m ρ c)).trans (w1_arg6 m ρ c)
theorem w2_arg7 : W2 m ρ c (Proc.devRef .tc main_arg7) = arg m c main_arg7 := (keep1_arg7 (W1 m ρ c)).trans (w1_arg7 m ρ c)

/-! After the in-degree's count. -/
theorem w3_cst3 : W3 m ρ c (Proc.devRef .tc main_cst_3) = constant (F := Ideal) S_ .f32 0x3F800000#32 := clampIn (W2 m ρ c)
theorem w3_v7 : W3 m ρ c (Proc.devRef .tc main_v7)
    = Host.scatterAdd (F := Ideal) scatter_S131072_S1048576x1_S1048576_n_0_0_1
        (broadcastInDim S131072 ![] bcast_S_S131072 (constant S_ .f32 0x00000000#32))
        (broadcastInDim S1048576x1 ![0] bcast_S1048576_S1048576x1_0 (arg m c main_arg7))
        (broadcastInDim S1048576 ![] bcast_S_S1048576 (constant S_ .f32 0x3F800000#32)) :=
  (inCount (W2 m ρ c)).trans (by rw [w2_arg7 m ρ c, w2_v0 m ρ c])
theorem w3_v4 : W3 m ρ c (Proc.devRef .tc main_v4) = clampedDeg (arg m c main_arg6) := (keep2_v4 (W2 m ρ c)).trans (w2_v4 m ρ c)
theorem w3_arg0 : W3 m ρ c (Proc.devRef .tc main_arg0) = arg m c main_arg0 := (keep2_arg0 (W2 m ρ c)).trans (w2_arg0 m ρ c)
theorem w3_arg1 : W3 m ρ c (Proc.devRef .tc main_arg1) = arg m c main_arg1 := (keep2_arg1 (W2 m ρ c)).trans (w2_arg1 m ρ c)
theorem w3_arg6 : W3 m ρ c (Proc.devRef .tc main_arg6) = arg m c main_arg6 := (keep2_arg6 (W2 m ρ c)).trans (w2_arg6 m ρ c)
theorem w3_arg7 : W3 m ρ c (Proc.devRef .tc main_arg7) = arg m c main_arg7 := (keep2_arg7 (W2 m ρ c)).trans (w2_arg7 m ρ c)

/-! After the in-degree's clamp. -/
theorem w4_v8 : W4 m ρ c (Proc.devRef .tc main_v8) = clampedDeg (arg m c main_arg7) :=
  (clippedIn (W3 m ρ c)).trans (by rw [w3_cst3 m ρ c, w3_v7 m ρ c]; rfl)
theorem w4_v4 : W4 m ρ c (Proc.devRef .tc main_v4) = clampedDeg (arg m c main_arg6) := (keep3_v4 (W3 m ρ c)).trans (w3_v4 m ρ c)
theorem w4_arg0 : W4 m ρ c (Proc.devRef .tc main_arg0) = arg m c main_arg0 := (keep3_arg0 (W3 m ρ c)).trans (w3_arg0 m ρ c)
theorem w4_arg1 : W4 m ρ c (Proc.devRef .tc main_arg1) = arg m c main_arg1 := (keep3_arg1 (W3 m ρ c)).trans (w3_arg1 m ρ c)
theorem w4_arg6 : W4 m ρ c (Proc.devRef .tc main_arg6) = arg m c main_arg6 := (keep3_arg6 (W3 m ρ c)).trans (w3_arg6 m ρ c)
theorem w4_arg7 : W4 m ρ c (Proc.devRef .tc main_arg7) = arg m c main_arg7 := (keep3_arg7 (W3 m ρ c)).trans (w3_arg7 m ρ c)

/-- The clamped degree to the power -1/2 is the reference's stage. -/
theorem invDeg_eq (idx : IVec S1048576 32) :
    Host.powf (F := Ideal) (φ := .f32) (clampedDeg idx) (broadcastInDim S131072 ![] bcast_S_S131072 (constant S_ .f32 0xBF000000#32))
      = Stages.invDeg (F := Ideal) idx := rfl

/-! At region 0's entry. -/
theorem w5_v10 : W5 m ρ c (Proc.devRef .tc main_v10) = Stages.invDeg (F := Ideal) (arg m c main_arg6) :=
  (invOut (W4 m ρ c)).trans (by rw [w4_v4 m ρ c, invDeg_eq])
theorem w5_v12 : W5 m ρ c (Proc.devRef .tc main_v12) = Stages.invDeg (F := Ideal) (arg m c main_arg7) :=
  (invIn (W4 m ρ c)).trans (by rw [w4_v8 m ρ c, invDeg_eq])
theorem w5_v31 : W5 m ρ c (Proc.devRef .tc main_v31)
    = Stages.agg1 (F := Ideal) (arg m c main_arg0) (arg m c main_arg1) (arg m c main_arg6) (arg m c main_arg7) :=
  (aggregate1 (W4 m ρ c)).trans (by
    rw [w4_v4 m ρ c, w4_v8 m ρ c, w4_arg0 m ρ c, w4_arg1 m ρ c, w4_arg6 m ρ c, w4_arg7 m ρ c, invDeg_eq, invDeg_eq]
    rfl)
theorem w5_arg1 : W5 m ρ c (Proc.devRef .tc main_arg1) = arg m c main_arg1 := (keep5_arg1 (W0 m ρ c)).trans (launch_arg m ρ c _)
theorem w5_arg2 : W5 m ρ c (Proc.devRef .tc main_arg2) = arg m c main_arg2 := (keep5_arg2 (W0 m ρ c)).trans (launch_arg m ρ c _)
theorem w5_arg3 : W5 m ρ c (Proc.devRef .tc main_arg3) = arg m c main_arg3 := (keep5_arg3 (W0 m ρ c)).trans (launch_arg m ρ c _)
theorem w5_arg4 : W5 m ρ c (Proc.devRef .tc main_arg4) = arg m c main_arg4 := (keep5_arg4 (W0 m ρ c)).trans (launch_arg m ρ c _)
theorem w5_arg5 : W5 m ρ c (Proc.devRef .tc main_arg5) = arg m c main_arg5 := (keep5_arg5 (W0 m ρ c)).trans (launch_arg m ρ c _)
theorem w5_arg6 : W5 m ρ c (Proc.devRef .tc main_arg6) = arg m c main_arg6 := (keep5_arg6 (W0 m ρ c)).trans (launch_arg m ρ c _)
theorem w5_arg7 : W5 m ρ c (Proc.devRef .tc main_arg7) = arg m c main_arg7 := (keep5_arg7 (W0 m ρ c)).trans (launch_arg m ρ c _)

end Boundaries

/-! ## Through the regions to the result -/

section Regions

variable (m : (ℓ : Loc nD τ sig) → Buf (Elt Ideal) ℓ) (ρ : Dev nD → PrngReg) (c : Dev nD)

/-- Layer 1's output as a function of the arguments. -/
abbrev hidden : FVec Ideal Cert.ReferenceIdeal.S131072x256 .f32 :=
  Stages.layer1 (F := Ideal) (arg m c main_arg0) (arg m c main_arg1) (arg m c main_arg2) (arg m c main_arg6) (arg m c main_arg7)

/-- Layer 2's projection as a function of the arguments. -/
abbrev projected : FVec Ideal Cert.ReferenceIdeal.S131072x128 .f32 :=
  Stages.proj2 (F := Ideal) (hidden m c) (arg m c main_arg3) (arg m c main_arg6)

/-! At region 0's exit: its output array holds layer 1; everything else is as at its entry. -/
theorem w6_v32 : W6 m ρ c (Proc.devRef .tc main_v32) = hidden m c :=
  (W6_arr m ρ c 2).trans ((Cert.KernelIdeal.RegValue.reg0_value (V5 m ρ) c).trans (by
    dsimp only [V5]
    rw [w5_v31 m ρ c, w5_arg2 m ρ c]
    rfl))
theorem w6_v10 : W6 m ρ c (Proc.devRef .tc main_v10) = Stages.invDeg (F := Ideal) (arg m c main_arg6) :=
  (W6_of_ne m ρ c main_v10 (by decide)).trans (w5_v10 m ρ c)
theorem w6_v12 : W6 m ρ c (Proc.devRef .tc main_v12) = Stages.invDeg (F := Ideal) (arg m c main_arg7) :=
  (W6_of_ne m ρ c main_v12 (by decide)).trans (w5_v12 m ρ c)
theorem w6_arg1 : W6 m ρ c (Proc.devRef .tc main_arg1) = arg m c main_arg1 := (W6_of_ne m ρ c main_arg1 (by decide)).trans (w5_arg1 m ρ c)
theorem w6_arg3 : W6 m ρ c (Proc.devRef .tc main_arg3) = arg m c main_arg3 := (W6_of_ne m ρ c main_arg3 (by decide)).trans (w5_arg3 m ρ c)
theorem w6_arg4 : W6 m ρ c (Proc.devRef .tc main_arg4) = arg m c main_arg4 := (W6_of_ne m ρ c main_arg4 (by decide)).trans (w5_arg4 m ρ c)
theorem w6_arg5 : W6 m ρ c (Proc.devRef .tc main_arg5) = arg m c main_arg5 := (W6_of_ne m ρ c main_arg5 (by decide)).trans (w5_arg5 m ρ c)
theorem w6_arg6 : W6 m ρ c (Proc.devRef .tc main_arg6) = arg m c main_arg6 := (W6_of_ne m ρ c main_arg6 (by decide)).trans (w5_arg6 m ρ c)
theorem w6_arg7 : W6 m ρ c (Proc.devRef .tc main_arg7) = arg m c main_arg7 := (W6_of_ne m ρ c main_arg7 (by decide)).trans (w5_arg7 m ρ c)

/-! At region 1's entry: the hidden features rescaled. -/
theorem w7_v35 : W7 m ρ c (Proc.devRef .tc main_v35) = Stages.scaleOut256 (F := Ideal) (hidden m c) (arg m c main_arg6) :=
  (rescaled (W6 m ρ c)).trans (by rw [w6_v32 m ρ c, w6_v10 m ρ c]; rfl)
theorem w7_v12 : W7 m ρ c (Proc.devRef .tc main_v12) = Stages.invDeg (F := Ideal) (arg m c main_arg7) := (keepB_v12 (W6 m ρ c)).trans (w6_v12 m ρ c)
theorem w7_arg1 : W7 m ρ c (Proc.devRef .tc main_arg1) = arg m c main_arg1 := (keepB_arg1 (W6 m ρ c)).trans (w6_arg1 m ρ c)
theorem w7_arg3 : W7 m ρ c (Proc.devRef .tc main_arg3) = arg m c main_arg3 := (keepB_arg3 (W6 m ρ c)).trans (w6_arg3 m ρ c)
theorem w7_arg4 : W7 m ρ c (Proc.devRef .tc main_arg4) = arg m c main_arg4 := (keepB_arg4 (W6 m ρ c)).trans (w6_arg4 m ρ c)
theorem w7_arg5 : W7 m ρ c (Proc.devRef .tc main_arg5) = arg m c main_arg5 := (keepB_arg5 (W6 m ρ c)).trans (w6_arg5 m ρ c)
theorem w7_arg6 : W7 m ρ c (Proc.devRef .tc main_arg6) = arg m c main_arg6 := (keepB_arg6 (W6 m ρ c)).trans (w6_arg6 m ρ c)
theorem w7_arg7 : W7 m ρ c (Proc.devRef .tc main_arg7) = arg m c main_arg7 := (keepB_arg7 (W6 m ρ c)).trans (w6_arg7 m ρ c)

/-! At region 1's exit: its output array holds layer 2's projection. -/
theorem w8_v36 : W8 m ρ c (Proc.devRef .tc main_v36) = projected m c :=
  (W8_arr m ρ c 2).trans ((Cert.KernelIdeal.RegValue.reg1_value (V7 m ρ) c).trans (by
    dsimp only [V7]
    rw [w7_v35 m ρ c, w7_arg3 m ρ c]
    rfl))
theorem w8_v12 : W8 m ρ c (Proc.devRef .tc main_v12) = Stages.invDeg (F := Ideal) (arg m c main_arg7) :=
  (W8_of_ne m ρ c main_v12 (by decide)).trans (w7_v12 m ρ c)
theorem w8_arg1 : W8 m ρ c (Proc.devRef .tc main_arg1) = arg m c main_arg1 := (W8_of_ne m ρ c main_arg1 (by decide)).trans (w7_arg1 m ρ c)
theorem w8_arg4 : W8 m ρ c (Proc.devRef .tc main_arg4) = arg m c main_arg4 := (W8_of_ne m ρ c main_arg4 (by decide)).trans (w7_arg4 m ρ c)
theorem w8_arg5 : W8 m ρ c (Proc.devRef .tc main_arg5) = arg m c main_arg5 := (W8_of_ne m ρ c main_arg5 (by decide)).trans (w7_arg5 m ρ c)
theorem w8_arg6 : W8 m ρ c (Proc.devRef .tc main_arg6) = arg m c main_arg6 := (W8_of_ne m ρ c main_arg6 (by decide)).trans (w7_arg6 m ρ c)
theorem w8_arg7 : W8 m ρ c (Proc.devRef .tc main_arg7) = arg m c main_arg7 := (W8_of_ne m ρ c main_arg7 (by decide)).trans (w7_arg7 m ρ c)

/-- With deg_in^(-1/2) of the destinations, the kernel's aggregate is the reference's stage. -/
theorem aggregate2_eq (b : FVec Ideal S131072x128 .f32) (ew : FVec Ideal S1048576 .f32) (src dst : IVec S1048576 32) :
    aggregate2Of b ew src dst (Stages.invDeg (F := Ideal) dst) = Stages.agg2pre (F := Ideal) b ew src dst := rfl

/-! After layer 2's host operations. -/
theorem w9_v52 : W9 m ρ c (Proc.devRef .tc main_v52)
    = Stages.agg2pre (F := Ideal) (projected m c) (arg m c main_arg1) (arg m c main_arg6) (arg m c main_arg7) :=
  (aggregate2 (W8 m ρ c)).trans (by
    rw [w8_v36 m ρ c, w8_arg1 m ρ c, w8_arg6 m ρ c, w8_arg7 m ρ c, w8_v12 m ρ c, aggregate2_eq])
theorem w9_v54 : W9 m ρ c (Proc.devRef .tc main_v54)
    = cmpf (F := Ideal) (φ := .f32) .oge
        (Stages.agg2pre (F := Ideal) (projected m c) (arg m c main_arg1) (arg m c main_arg6) (arg m c main_arg7))
        (broadcastInDim S131072x128 ![] bcast_S_S131072x128 (constant S_ .f32 0x00000000#32)) :=
  (nonneg2 (W8 m ρ c)).trans (by
    rw [w8_v36 m ρ c, w8_arg1 m ρ c, w8_arg6 m ρ c, w8_arg7 m ρ c, w8_v12 m ρ c, aggregate2_eq])
theorem w9_v56 : W9 m ρ c (Proc.devRef .tc main_v56)
    = mulf (F := Ideal) (φ := .f32) (broadcastInDim S131072x128 ![] bcast_S_S131072x128 (constant S_ .f32 0x3C23D70A#32))
        (Stages.agg2pre (F := Ideal) (projected m c) (arg m c main_arg1) (arg m c main_arg6) (arg m c main_arg7)) :=
  (sloped2 (W8 m ρ c)).trans (by
    rw [w8_v36 m ρ c, w8_arg1 m ρ c, w8_arg6 m ρ c, w8_arg7 m ρ c, w8_v12 m ρ c, aggregate2_eq])
theorem w9_arg4 : W9 m ρ c (Proc.devRef .tc main_arg4) = arg m c main_arg4 := (keepC_arg4 (W8 m ρ c)).trans (w8_arg4 m ρ c)
theorem w9_arg5 : W9 m ρ c (Proc.devRef .tc main_arg5) = arg m c main_arg5 := (keepC_arg5 (W8 m ρ c)).trans (w8_arg5 m ρ c)

/-! At region 2's entry: layer 2's rectified output. -/
theorem w10_v57 : W10 m ρ c (Proc.devRef .tc main_v57)
    = Stages.agg2 (F := Ideal) (projected m c) (arg m c main_arg1) (arg m c main_arg6) (arg m c main_arg7) :=
  (rectified2 (W9 m ρ c)).trans (by rw [w9_v54 m ρ c, w9_v52 m ρ c, w9_v56 m ρ c]; rfl)
theorem w10_arg4 : W10 m ρ c (Proc.devRef .tc main_arg4) = arg m c main_arg4 := (keepD_arg4 (W9 m ρ c)).trans (w9_arg4 m ρ c)
theorem w10_arg5 : W10 m ρ c (Proc.devRef .tc main_arg5) = arg m c main_arg5 := (keepD_arg5 (W9 m ρ c)).trans (w9_arg5 m ρ c)

/-- THE RESULT: after the last region the result array holds the reference's function of the arguments. -/
theorem result_value : W11 m ρ c (Proc.devRef .tc main_v58)
    = Stages.result (F := Ideal) (arg m c main_arg0) (arg m c main_arg1) (arg m c main_arg2) (arg m c main_arg3)
        (arg m c main_arg4) (arg m c main_arg5) (arg m c main_arg6) (arg m c main_arg7) :=
  (W11_arr m ρ c 3).trans ((Cert.KernelIdeal.RegValue.reg2_value (V10 m ρ) c).trans (by
    dsimp only [V10]
    rw [w10_v57 m ρ c, w10_arg4 m ρ c, w10_arg5 m ρ c]
    rfl))

end Regions

end Cert.KernelIdeal.KChain

end
-- ==== Proof.RefRun.lean ====
/-
  The reference's run. Its @main is a straight line of 136 tensor operations once the helpers it calls are
  unfolded where they are called: the clamp below at 1 (four times), the three selects of the leaky rectifiers and
  of the floor division, and the integer floor division itself. No operation writes an operand. So every execution
  ends with each buffer at the fold of the operations' results over the launch contents. Read at the result
  buffer, that fold is the staged reference of the eight operands — the degrees clamped and raised to -1/2, the
  two edge-weighted aggregations with their projections and leaky rectifiers, the mean over each run of 128
  nodes, the two dense layers — and read at an operand it is the operand.
-/
import proofs.«115493_j8117488190078_1_alg».proof.Proof.Stages
import Idealize.ShloMosaic.Lib.Pipeline.Frame

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The first window of the reference's operations (66), each callee's operations in place of its call. -/
abbrev ops_part0 : List (HloOp τ sig (Elt F)) :=
  [ nullary main_cst (constant S_ .f32 0x3F800000#32),
    unary main_cst main_v0 (broadcastInDim S1048576 ![] bcast_S_S1048576 : (⟨S_, .f32⟩ : BufTy).Contents (Elt F) → (⟨S1048576, .f32⟩ : BufTy).Contents (Elt F)),
    nullary main_cst_0 (constant S_ .f32 0x00000000#32),
    unary main_cst_0 main_v1 (broadcastInDim S131072 ![] bcast_S_S131072 : (⟨S_, .f32⟩ : BufTy).Contents (Elt F) → (⟨S131072, .f32⟩ : BufTy).Contents (Elt F)),
    unary main_arg6 main_v2 (broadcastInDim S1048576x1 ![0] bcast_S1048576_S1048576x1_0 : (⟨S1048576, .i32⟩ : BufTy).Contents (Elt F) → (⟨S1048576x1, .i32⟩ : BufTy).Contents (Elt F)),
    ternary main_v1 main_v2 main_v0 main_v3 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_1 (constant S_ .f32 0x3F800000#32),
    TRef.unary (.of main_cst_1 : TRef sig ⟨S_, .f32⟩) main_call0.v0 id,
    TRef.unary main_call0.v0 main_call0.v1 (broadcastInDim S131072 ![] bcast_S_S131072),
    TRef.binary main_call0.v1 (.of main_v3 : TRef sig ⟨S131072, .f32⟩) main_call0.v2 maximumf,
    nullary main_cst_2 (constant S_ .f32 0x00000000#32),
    unary main_cst_2 main_v5 (broadcastInDim S131072 ![] bcast_S_S131072 : (⟨S_, .f32⟩ : BufTy).Contents (Elt F) → (⟨S131072, .f32⟩ : BufTy).Contents (Elt F)),
    unary main_arg7 main_v6 (broadcastInDim S1048576x1 ![0] bcast_S1048576_S1048576x1_0 : (⟨S1048576, .i32⟩ : BufTy).Contents (Elt F) → (⟨S1048576x1, .i32⟩ : BufTy).Contents (Elt F)),
    ternary main_v5 main_v6 main_v0 main_v7 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_3 (constant S_ .f32 0x3F800000#32),
    TRef.unary (.of main_cst_3 : TRef sig ⟨S_, .f32⟩) main_call1.v0 id,
    TRef.unary main_call1.v0 main_call1.v1 (broadcastInDim S131072 ![] bcast_S_S131072),
    TRef.binary main_call1.v1 (.of main_v7 : TRef sig ⟨S131072, .f32⟩) main_call1.v2 maximumf,
    nullary main_cst_4 (constant S_ .f32 0xBF000000#32),
    unary main_cst_4 main_v9 (broadcastInDim S131072 ![] bcast_S_S131072 : (⟨S_, .f32⟩ : BufTy).Contents (Elt F) → (⟨S131072, .f32⟩ : BufTy).Contents (Elt F)),
    binary main_v4 main_v9 main_v10 (Host.powf : (⟨S131072, .f32⟩ : BufTy).Contents (Elt F) → (⟨S131072, .f32⟩ : BufTy).Contents (Elt F) → (⟨S131072, .f32⟩ : BufTy).Contents (Elt F)),
    unary main_v10 main_v11 (broadcastInDim S131072x1 ![0] bcast_S131072_S131072x1_0 : (⟨S131072, .f32⟩ : BufTy).Contents (Elt F) → (⟨S131072x1, .f32⟩ : BufTy).Contents (Elt F)),
    unary main_v11 main_v12 (broadcastInDim S131072x64 ![0, 1] bcast_S131072x1_S131072x64_0_1 : (⟨S131072x1, .f32⟩ : BufTy).Contents (Elt F) → (⟨S131072x64, .f32⟩ : BufTy).Contents (Elt F)),
    binary main_arg0 main_v12 main_v13 (mulf : (⟨S131072x64, .f32⟩ : BufTy).Contents (Elt F) → (⟨S131072x64, .f32⟩ : BufTy).Contents (Elt F) → (⟨S131072x64, .f32⟩ : BufTy).Contents (Elt F)),
    nullary main_c (constantI S_ 32 0#32),
    unary main_c main_v14 (broadcastInDim S1048576 ![] bcast_S_S1048576 : (⟨S_, .i32⟩ : BufTy).Contents (Elt F) → (⟨S1048576, .i32⟩ : BufTy).Contents (Elt F)),
    binary main_arg6 main_v14 main_v15 (cmpi .slt : (⟨S1048576, .i32⟩ : BufTy).Contents (Elt F) → (⟨S1048576, .i32⟩ : BufTy).Contents (Elt F) → (⟨S1048576, .i1⟩ : BufTy).Contents (Elt F)),
    nullary main_c_5 (constantI S_ 32 131072#32),
    unary main_c_5 main_v16 (broadcastInDim S1048576 ![] bcast_S_S1048576 : (⟨S_, .i32⟩ : BufTy).Contents (Elt F) → (⟨S1048576, .i32⟩ : BufTy).Contents (Elt F)),
    binary main_arg6 main_v16 main_v17 (addi : (⟨S1048576, .i32⟩ : BufTy).Contents (Elt F) → (⟨S1048576, .i32⟩ : BufTy).Contents (Elt F) → (⟨S1048576, .i32⟩ : BufTy).Contents (Elt F)),
    ternary main_v15 main_v17 main_arg6 main_v18 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v18 main_v19 (broadcastInDim S1048576x1 ![0] bcast_S1048576_S1048576x1_0 : (⟨S1048576, .i32⟩ : BufTy).Contents (Elt F) → (⟨S1048576x1, .i32⟩ : BufTy).Contents (Elt F)),
    binary main_v13 main_v19 main_v20 ((fun x i => Host.gather gather_S131072x64_S1048576x1_S1048576x64_1_0_n_n_0_1_164 x i) : (⟨S131072x64, .f32⟩ : BufTy).Contents (Elt F) → (⟨S1048576x1, .i32⟩ : BufTy).Contents (Elt F) → (⟨S1048576x64, .f32⟩ : BufTy).Contents (Elt F)),
    unary main_arg1 main_v21 (broadcastInDim S1048576x1 ![0] bcast_S1048576_S1048576x1_0 : (⟨S1048576, .f32⟩ : BufTy).Contents (Elt F) → (⟨S1048576x1, .f32⟩ : BufTy).Contents (Elt F)),
    unary main_v21 main_v22 (broadcastInDim S1048576x64 ![0, 1] bcast_S1048576x1_S1048576x64_0_1 : (⟨S1048576x1, .f32⟩ : BufTy).Contents (Elt F) → (⟨S1048576x64, .f32⟩ : BufTy).Contents (Elt F)),
    binary main_v20 main_v22 main_v23 (mulf : (⟨S1048576x64, .f32⟩ : BufTy).Contents (Elt F) → (⟨S1048576x64, .f32⟩ : BufTy).Contents (Elt F) → (⟨S1048576x64, .f32⟩ : BufTy).Contents (Elt F)),
    nullary main_cst_6 (constant S_ .f32 0x00000000#32),
    unary main_cst_6 main_v24 (broadcastInDim S131072x64 ![] bcast_S_S131072x64 : (⟨S_, .f32⟩ : BufTy).Contents (Elt F) → (⟨S131072x64, .f32⟩ : BufTy).Contents (Elt F)),
    unary main_arg7 main_v25 (broadcastInDim S1048576x1 ![0] bcast_S1048576_S1048576x1_0 : (⟨S1048576, .i32⟩ : BufTy).Contents (Elt F) → (⟨S1048576x1, .i32⟩ : BufTy).Contents (Elt F)),
    ternary main_v24 main_v25 main_v23 main_v26 ((fun x i u => Host.scatterAdd scatter_S131072x64_S1048576x1_S1048576x64_1_0_0_1 x i u) : (⟨S131072x64, .f32⟩ : BufTy).Contents (Elt F) → (⟨S1048576x1, .i32⟩ : BufTy).Contents (Elt F) → (⟨S1048576x64, .f32⟩ : BufTy).Contents (Elt F) → (⟨S131072x64, .f32⟩ : BufTy).Contents (Elt F)),
    nullary main_cst_7 (constant S_ .f32 0xBF000000#32),
    unary main_cst_7 main_v27 (broadcastInDim S131072 ![] bcast_S_S131072 : (⟨S_, .f32⟩ : BufTy).Contents (Elt F) → (⟨S131072, .f32⟩ : BufTy).Contents (Elt F)),
    binary main_v8 main_v27 main_v28 (Host.powf : (⟨S131072, .f32⟩ : BufTy).Contents (Elt F) → (⟨S131072, .f32⟩ : BufTy).Contents (Elt F) → (⟨S131072, .f32⟩ : BufTy).Contents (Elt F)),
    unary main_v28 main_v29 (broadcastInDim S131072x1 ![0] bcast_S131072_S131072x1_0 : (⟨S131072, .f32⟩ : BufTy).Contents (Elt F) → (⟨S131072x1, .f32⟩ : BufTy).Contents (Elt F)),
    unary main_v29 main_v30 (broadcastInDim S131072x64 ![0, 1] bcast_S131072x1_S131072x64_0_1 : (⟨S131072x1, .f32⟩ : BufTy).Contents (Elt F) → (⟨S131072x64, .f32⟩ : BufTy).Contents (Elt F)),
    binary main_v26 main_v30 main_v31 (mulf : (⟨S131072x64, .f32⟩ : BufTy).Contents (Elt F) → (⟨S131072x64, .f32⟩ : BufTy).Contents (Elt F) → (⟨S131072x64, .f32⟩ : BufTy).Contents (Elt F)),
    binary main_v31 main_arg2 main_v32 ((fun l r => Host.dotGeneral dot_S131072x64_S64x256_S131072x256_1_0_0_1_n_n none l r) : (⟨S131072x64, .f32⟩ : BufTy).Contents (Elt F) → (⟨S64x256, .f32⟩ : BufTy).Contents (Elt F) → (⟨S131072x256, .f32⟩ : BufTy).Contents (Elt F)),
    nullary main_cst_8 (constant S_ .f32 0x00000000#32),
    unary main_cst_8 main_v33 (broadcastInDim S131072x256 ![] bcast_S_S131072x256 : (⟨S_, .f32⟩ : BufTy).Contents (Elt F) → (⟨S131072x256, .f32⟩ : BufTy).Contents (Elt F)),
    binary main_v32 main_v33 main_v34 (cmpf .oge : (⟨S131072x256, .f32⟩ : BufTy).Contents (Elt F) → (⟨S131072x256, .f32⟩ : BufTy).Contents (Elt F) → (⟨S131072x256, .i1⟩ : BufTy).Contents (Elt F)),
    nullary main_cst_9 (constant S_ .f32 0x3C23D70A#32),
    unary main_cst_9 main_v35 (broadcastInDim S131072x256 ![] bcast_S_S131072x256 : (⟨S_, .f32⟩ : BufTy).Contents (Elt F) → (⟨S131072x256, .f32⟩ : BufTy).Contents (Elt F)),
    binary main_v35 main_v32 main_v36 (mulf : (⟨S131072x256, .f32⟩ : BufTy).Contents (Elt F) → (⟨S131072x256, .f32⟩ : BufTy).Contents (Elt F) → (⟨S131072x256, .f32⟩ : BufTy).Contents (Elt F)),
    TRef.ternary (.of main_v34 : TRef sig ⟨S131072x256, .i1⟩) (.of main_v32 : TRef sig ⟨S131072x256, .f32⟩) (.of main_v36 : TRef sig ⟨S131072x256, .f32⟩) main_call2.v0 select,
    nullary main_cst_10 (constant S_ .f32 0x3F800000#32),
    unary main_cst_10 main_v38 (broadcastInDim S1048576 ![] bcast_S_S1048576 : (⟨S_, .f32⟩ : BufTy).Contents (Elt F) → (⟨S1048576, .f32⟩ : BufTy).Contents (Elt F)),
    nullary main_cst_11 (constant S_ .f32 0x00000000#32),
    unary main_cst_11 main_v39 (broadcastInDim S131072 ![] bcast_S_S131072 : (⟨S_, .f32⟩ : BufTy).Contents (Elt F) → (⟨S131072, .f32⟩ : BufTy).Contents (Elt F)),
    unary main_arg6 main_v40 (broadcastInDim S1048576x1 ![0] bcast_S1048576_S1048576x1_0 : (⟨S1048576, .i32⟩ : BufTy).Contents (Elt F) → (⟨S1048576x1, .i32⟩ : BufTy).Contents (Elt F)),
    ternary main_v39 main_v40 main_v38 main_v41 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_12 (constant S_ .f32 0x3F800000#32),
    TRef.unary (.of main_cst_12 : TRef sig ⟨S_, .f32⟩) main_call3.v0 id,
    TRef.unary main_call3.v0 main_call3.v1 (broadcastInDim S131072 ![] bcast_S_S131072),
    TRef.binary main_call3.v1 (.of main_v41 : TRef sig ⟨S131072, .f32⟩) main_call3.v2 maximumf,
    nullary main_cst_13 (constant S_ .f32 0x00000000#32),
    unary main_cst_13 main_v43 (broadcastInDim S131072 ![] bcast_S_S131072 : (⟨S_, .f32⟩ : BufTy).Contents (Elt F) → (⟨S131072, .f32⟩ : BufTy).Contents (Elt F)) ]

/-- The second window of the reference's operations (70), each callee's operations in place of its call. -/
abbrev ops_part1 : List (HloOp τ sig (Elt F)) :=
  [ unary main_arg7 main_v44 (broadcastInDim S1048576x1 ![0] bcast_S1048576_S1048576x1_0 : (⟨S1048576, .i32⟩ : BufTy).Contents (Elt F) → (⟨S1048576x1, .i32⟩ : BufTy).Contents (Elt F)),
    ternary main_v43 main_v44 main_v38 main_v45 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_14 (constant S_ .f32 0x3F800000#32),
    TRef.unary (.of main_cst_14 : TRef sig ⟨S_, .f32⟩) main_call4.v0 id,
    TRef.unary main_call4.v0 main_call4.v1 (broadcastInDim S131072 ![] bcast_S_S131072),
    TRef.binary main_call4.v1 (.of main_v45 : TRef sig ⟨S131072, .f32⟩) main_call4.v2 maximumf,
    nullary main_cst_15 (constant S_ .f32 0xBF000000#32),
    unary main_cst_15 main_v47 (broadcastInDim S131072 ![] bcast_S_S131072 : (⟨S_, .f32⟩ : BufTy).Contents (Elt F) → (⟨S131072, .f32⟩ : BufTy).Contents (Elt F)),
    binary main_v42 main_v47 main_v48 (Host.powf : (⟨S131072, .f32⟩ : BufTy).Contents (Elt F) → (⟨S131072, .f32⟩ : BufTy).Contents (Elt F) → (⟨S131072, .f32⟩ : BufTy).Contents (Elt F)),
    unary main_v48 main_v49 (broadcastInDim S131072x1 ![0] bcast_S131072_S131072x1_0 : (⟨S131072, .f32⟩ : BufTy).Contents (Elt F) → (⟨S131072x1, .f32⟩ : BufTy).Contents (Elt F)),
    unary main_v49 main_v50 (broadcastInDim S131072x256 ![0, 1] bcast_S131072x1_S131072x256_0_1 : (⟨S131072x1, .f32⟩ : BufTy).Contents (Elt F) → (⟨S131072x256, .f32⟩ : BufTy).Contents (Elt F)),
    binary main_v37 main_v50 main_v51 (mulf : (⟨S131072x256, .f32⟩ : BufTy).Contents (Elt F) → (⟨S131072x256, .f32⟩ : BufTy).Contents (Elt F) → (⟨S131072x256, .f32⟩ : BufTy).Contents (Elt F)),
    binary main_v51 main_arg3 main_v52 ((fun l r => Host.dotGeneral dot_S131072x256_S256x128_S131072x128_1_0_0_1_n_n none l r) : (⟨S131072x256, .f32⟩ : BufTy).Contents (Elt F) → (⟨S256x128, .f32⟩ : BufTy).Contents (Elt F) → (⟨S131072x128, .f32⟩ : BufTy).Contents (Elt F)),
    nullary main_c_16 (constantI S_ 32 0#32),
    unary main_c_16 main_v53 (broadcastInDim S1048576 ![] bcast_S_S1048576 : (⟨S_, .i32⟩ : BufTy).Contents (Elt F) → (⟨S1048576, .i32⟩ : BufTy).Contents (Elt F)),
    binary main_arg6 main_v53 main_v54 (cmpi .slt : (⟨S1048576, .i32⟩ : BufTy).Contents (Elt F) → (⟨S1048576, .i32⟩ : BufTy).Contents (Elt F) → (⟨S1048576, .i1⟩ : BufTy).Contents (Elt F)),
    nullary main_c_17 (constantI S_ 32 131072#32),
    unary main_c_17 main_v55 (broadcastInDim S1048576 ![] bcast_S_S1048576 : (⟨S_, .i32⟩ : BufTy).Contents (Elt F) → (⟨S1048576, .i32⟩ : BufTy).Contents (Elt F)),
    binary main_arg6 main_v55 main_v56 (addi : (⟨S1048576, .i32⟩ : BufTy).Contents (Elt F) → (⟨S1048576, .i32⟩ : BufTy).Contents (Elt F) → (⟨S1048576, .i32⟩ : BufTy).Contents (Elt F)),
    ternary main_v54 main_v56 main_arg6 main_v57 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v57 main_v58 (broadcastInDim S1048576x1 ![0] bcast_S1048576_S1048576x1_0 : (⟨S1048576, .i32⟩ : BufTy).Contents (Elt F) → (⟨S1048576x1, .i32⟩ : BufTy).Contents (Elt F)),
    binary main_v52 main_v58 main_v59 ((fun x i => Host.gather gather_S131072x128_S1048576x1_S1048576x128_1_0_n_n_0_1_1128 x i) : (⟨S131072x128, .f32⟩ : BufTy).Contents (Elt F) → (⟨S1048576x1, .i32⟩ : BufTy).Contents (Elt F) → (⟨S1048576x128, .f32⟩ : BufTy).Contents (Elt F)),
    unary main_arg1 main_v60 (broadcastInDim S1048576x1 ![0] bcast_S1048576_S1048576x1_0 : (⟨S1048576, .f32⟩ : BufTy).Contents (Elt F) → (⟨S1048576x1, .f32⟩ : BufTy).Contents (Elt F)),
    unary main_v60 main_v61 (broadcastInDim S1048576x128 ![0, 1] bcast_S1048576x1_S1048576x128_0_1 : (⟨S1048576x1, .f32⟩ : BufTy).Contents (Elt F) → (⟨S1048576x128, .f32⟩ : BufTy).Contents (Elt F)),
    binary main_v59 main_v61 main_v62 (mulf : (⟨S1048576x128, .f32⟩ : BufTy).Contents (Elt F) → (⟨S1048576x128, .f32⟩ : BufTy).Contents (Elt F) → (⟨S1048576x128, .f32⟩ : BufTy).Contents (Elt F)),
    nullary main_cst_18 (constant S_ .f32 0x00000000#32),
    unary main_cst_18 main_v63 (broadcastInDim S131072x128 ![] bcast_S_S131072x128 : (⟨S_, .f32⟩ : BufTy).Contents (Elt F) → (⟨S131072x128, .f32⟩ : BufTy).Contents (Elt F)),
    unary main_arg7 main_v64 (broadcastInDim S1048576x1 ![0] bcast_S1048576_S1048576x1_0 : (⟨S1048576, .i32⟩ : BufTy).Contents (Elt F) → (⟨S1048576x1, .i32⟩ : BufTy).Contents (Elt F)),
    ternary main_v63 main_v64 main_v62 main_v65 ((fun x i u => Host.scatterAdd scatter_S131072x128_S1048576x1_S1048576x128_1_0_0_1 x i u) : (⟨S131072x128, .f32⟩ : BufTy).Contents (Elt F) → (⟨S1048576x1, .i32⟩ : BufTy).Contents (Elt F) → (⟨S1048576x128, .f32⟩ : BufTy).Contents (Elt F) → (⟨S131072x128, .f32⟩ : BufTy).Contents (Elt F)),
    nullary main_cst_19 (constant S_ .f32 0xBF000000#32),
    unary main_cst_19 main_v66 (broadcastInDim S131072 ![] bcast_S_S131072 : (⟨S_, .f32⟩ : BufTy).Contents (Elt F) → (⟨S131072, .f32⟩ : BufTy).Contents (Elt F)),
    binary main_v46 main_v66 main_v67 (Host.powf : (⟨S131072, .f32⟩ : BufTy).Contents (Elt F) → (⟨S131072, .f32⟩ : BufTy).Contents (Elt F) → (⟨S131072, .f32⟩ : BufTy).Contents (Elt F)),
    unary main_v67 main_v68 (broadcastInDim S131072x1 ![0] bcast_S131072_S131072x1_0 : (⟨S131072, .f32⟩ : BufTy).Contents (Elt F) → (⟨S131072x1, .f32⟩ : BufTy).Contents (Elt F)),
    unary main_v68 main_v69 (broadcastInDim S131072x128 ![0, 1] bcast_S131072x1_S131072x128_0_1 : (⟨S131072x1, .f32⟩ : BufTy).Contents (Elt F) → (⟨S131072x128, .f32⟩ : BufTy).Contents (Elt F)),
    binary main_v65 main_v69 main_v70 (mulf : (⟨S131072x128, .f32⟩ : BufTy).Contents (Elt F) → (⟨S131072x128, .f32⟩ : BufTy).Contents (Elt F) → (⟨S131072x128, .f32⟩ : BufTy).Contents (Elt F)),
    nullary main_cst_20 (constant S_ .f32 0x00000000#32),
    unary main_cst_20 main_v71 (broadcastInDim S131072x128 ![] bcast_S_S131072x128 : (⟨S_, .f32⟩ : BufTy).Contents (Elt F) → (⟨S131072x128, .f32⟩ : BufTy).Contents (Elt F)),
    binary main_v70 main_v71 main_v72 (cmpf .oge : (⟨S131072x128, .f32⟩ : BufTy).Contents (Elt F) → (⟨S131072x128, .f32⟩ : BufTy).Contents (Elt F) → (⟨S131072x128, .i1⟩ : BufTy).Contents (Elt F)),
    nullary main_cst_21 (constant S_ .f32 0x3C23D70A#32),
    unary main_cst_21 main_v73 (broadcastInDim S131072x128 ![] bcast_S_S131072x128 : (⟨S_, .f32⟩ : BufTy).Contents (Elt F) → (⟨S131072x128, .f32⟩ : BufTy).Contents (Elt F)),
    binary main_v73 main_v70 main_v74 (mulf : (⟨S131072x128, .f32⟩ : BufTy).Contents (Elt F) → (⟨S131072x128, .f32⟩ : BufTy).Contents (Elt F) → (⟨S131072x128, .f32⟩ : BufTy).Contents (Elt F)),
    TRef.ternary (.of main_v72 : TRef sig ⟨S131072x128, .i1⟩) (.of main_v70 : TRef sig ⟨S131072x128, .f32⟩) (.of main_v74 : TRef sig ⟨S131072x128, .f32⟩) main_call5.v0 select,
    nullary main_v76 (iotaInDim S131072 32 0),
    nullary main_c_22 (constantI S_ 32 128#32),
    TRef.unary (.of main_c_22 : TRef sig ⟨S_, .i32⟩) main_call6.v0 id,
    TRef.unary main_call6.v0 main_call6.v1 (broadcastInDim S131072 ![] bcast_S_S131072),
    TRef.binary (.of main_v76 : TRef sig ⟨S131072, .i32⟩) main_call6.v1 main_call6.v2 Host.divsi,
    TRef.unary (.of main_v76 : TRef sig ⟨S131072, .i32⟩) main_call6.v3 signi,
    TRef.unary main_call6.v0 main_call6.v4 signi,
    TRef.unary main_call6.v4 main_call6.v5 (broadcastInDim S131072 ![] bcast_S_S131072),
    TRef.binary main_call6.v3 main_call6.v5 main_call6.v6 (cmpi .ne),
    TRef.unary main_call6.v0 main_call6.v7 (broadcastInDim S131072 ![] bcast_S_S131072),
    TRef.binary (.of main_v76 : TRef sig ⟨S131072, .i32⟩) main_call6.v7 main_call6.v8 Host.remsi,
    TRef.nullary main_call6.c (constantI S_ 32 0#32),
    TRef.unary main_call6.c main_call6.v9 (broadcastInDim S131072 ![] bcast_S_S131072),
    TRef.binary main_call6.v8 main_call6.v9 main_call6.v10 (cmpi .ne),
    TRef.binary main_call6.v6 main_call6.v10 main_call6.v11 andi,
    TRef.nullary main_call6.c_0 (constantI S_ 32 1#32),
    TRef.unary main_call6.c_0 main_call6.v12 (broadcastInDim S131072 ![] bcast_S_S131072),
    TRef.binary main_call6.v2 main_call6.v12 main_call6.v13 subi,
    TRef.ternary main_call6.v11 main_call6.v13 main_call6.v2 main_call6.call0.v0 select,
    nullary main_cst_23 (constant S_ .f32 0x00000000#32),
    unary main_cst_23 main_v78 (broadcastInDim S1024x128 ![] bcast_S_S1024x128 : (⟨S_, .f32⟩ : BufTy).Contents (Elt F) → (⟨S1024x128, .f32⟩ : BufTy).Contents (Elt F)),
    unary main_v77 main_v79 (broadcastInDim S131072x1 ![0] bcast_S131072_S131072x1_0 : (⟨S131072, .i32⟩ : BufTy).Contents (Elt F) → (⟨S131072x1, .i32⟩ : BufTy).Contents (Elt F)),
    ternary main_v78 main_v79 main_v75 main_v80 ((fun x i u => Host.scatterAdd scatter_S1024x128_S131072x1_S131072x128_1_0_0_1 x i u) : (⟨S1024x128, .f32⟩ : BufTy).Contents (Elt F) → (⟨S131072x1, .i32⟩ : BufTy).Contents (Elt F) → (⟨S131072x128, .f32⟩ : BufTy).Contents (Elt F) → (⟨S1024x128, .f32⟩ : BufTy).Contents (Elt F)),
    nullary main_cst_24 (constant S_ .f32 0x43000000#32),
    unary main_cst_24 main_v81 (broadcastInDim S1024x128 ![] bcast_S_S1024x128 : (⟨S_, .f32⟩ : BufTy).Contents (Elt F) → (⟨S1024x128, .f32⟩ : BufTy).Contents (Elt F)),
    binary main_v80 main_v81 main_v82 (Host.divf : (⟨S1024x128, .f32⟩ : BufTy).Contents (Elt F) → (⟨S1024x128, .f32⟩ : BufTy).Contents (Elt F) → (⟨S1024x128, .f32⟩ : BufTy).Contents (Elt F)),
    binary main_v82 main_arg4 main_v83 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    binary main_v83 main_arg5 main_v84 ((fun l r => Host.dotGeneral dot_S1024x64_S64x16_S1024x16_1_0_0_1_n_n none l r) : (⟨S1024x64, .f32⟩ : BufTy).Contents (Elt F) → (⟨S64x16, .f32⟩ : BufTy).Contents (Elt F) → (⟨S1024x16, .f32⟩ : BufTy).Contents (Elt F)) ]

/-- The reference's 136 operations, in order. -/
abbrev ops : List (HloOp τ sig (Elt F)) := ops_part0 ++ ops_part1

set_option maxRecDepth 8192 in
/-- The first window of @main is its operations in a line: the callees unfolded at their calls, sequencing reassociated. -/
theorem main_part0_eq (c : Dev nD) : main_part0 (F := F) c = seq ops_part0 := by
  simp only [main_part0, fn_clip.body, fn_where.body, seq, bind_assoc, pure_bind]
  rfl

set_option maxRecDepth 8192 in
/-- The second window likewise (the integer floor division's callee inside its own). -/
theorem main_part1_eq (c : Dev nD) : main_part1 (F := F) c = seq ops_part1 := by
  simp only [main_part1, fn_clip.body, fn_where_0.body, fn_floor_divide.body, fn_where_1.body, seq, bind_assoc, pure_bind]

/-- @main is the two windows in a row. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub ..⟩

set_option maxRecDepth 8192 in
theorem ops_part1_sub : (ops_part1 : List (HloOp τ sig (Elt F))).Forall fun op => op.bufs ⊆ tcRefs τ sig :=
  ⟨unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., unary_bufs_sub .., ternary_bufs_sub .., nullary_bufs_sub .., unary_bufs_sub .., binary_bufs_sub .., binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

set_option maxRecDepth 8192 in
set_option maxHeartbeats 4000000 in
/-- The operations' fold at the result buffer is the staged reference of the operands: the fold unrolled, each
    operation's result read at the buffer it writes and passed over at the others; what is left is the stages'
    own composition, by unfolding their names. -/
theorem out_eq (V : Valuation τ sig (Elt F)) :
    after ops V (Proc.devRef .tc main_v84) = Stages.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [ops, after_append, ops_part0, ops_part1]
  after_results_simp
  rfl

set_option maxRecDepth 8192 in
set_option maxHeartbeats 4000000 in
/-- No operation writes operand 0: it keeps its contents. -/
theorem arg0_eq (V : Valuation τ sig (Elt F)) :
    after ops V (Proc.devRef .tc main_arg0) = V (Proc.devRef .tc main_arg0) := by
  simp only [ops, after_append, ops_part0, ops_part1]
  after_results_simp

set_option maxRecDepth 8192 in
set_option maxHeartbeats 4000000 in
/-- No operation writes operand 1: it keeps its contents. -/
theorem arg1_eq (V : Valuation τ sig (Elt F)) :
    after ops V (Proc.devRef .tc main_arg1) = V (Proc.devRef .tc main_arg1) := by
  simp only [ops, after_append, ops_part0, ops_part1]
  after_results_simp

set_option maxRecDepth 8192 in
set_option maxHeartbeats 4000000 in
/-- No operation writes operand 2: it keeps its contents. -/
theorem arg2_eq (V : Valuation τ sig (Elt F)) :
    after ops V (Proc.devRef .tc main_arg2) = V (Proc.devRef .tc main_arg2) := by
  simp only [ops, after_append, ops_part0, ops_part1]
  after_results_simp

set_option maxRecDepth 8192 in
set_option maxHeartbeats 4000000 in
/-- No operation writes operand 3: it keeps its contents. -/
theorem arg3_eq (V : Valuation τ sig (Elt F)) :
    after ops V (Proc.devRef .tc main_arg3) = V (Proc.devRef .tc main_arg3) := by
  simp only [ops, after_append, ops_part0, ops_part1]
  after_results_simp

set_option maxRecDepth 8192 in
set_option maxHeartbeats 4000000 in
/-- No operation writes operand 4: it keeps its contents. -/
theorem arg4_eq (V : Valuation τ sig (Elt F)) :
    after ops V (Proc.devRef .tc main_arg4) = V (Proc.devRef .tc main_arg4) := by
  simp only [ops, after_append, ops_part0, ops_part1]
  after_results_simp

set_option maxRecDepth 8192 in
set_option maxHeartbeats 4000000 in
/-- No operation writes operand 5: it keeps its contents. -/
theorem arg5_eq (V : Valuation τ sig (Elt F)) :
    after ops V (Proc.devRef .tc main_arg5) = V (Proc.devRef .tc main_arg5) := by
  simp only [ops, after_append, ops_part0, ops_part1]
  after_results_simp

set_option maxRecDepth 8192 in
set_option maxHeartbeats 4000000 in
/-- No operation writes operand 6: it keeps its contents. -/
theorem arg6_eq (V : Valuation τ sig (Elt F)) :
    after ops V (Proc.devRef .tc main_arg6) = V (Proc.devRef .tc main_arg6) := by
  simp only [ops, after_append, ops_part0, ops_part1]
  after_results_simp

set_option maxRecDepth 8192 in
set_option maxHeartbeats 4000000 in
/-- No operation writes operand 7: it keeps its contents. -/
theorem arg7_eq (V : Valuation τ sig (Elt F)) :
    after ops V (Proc.devRef .tc main_arg7) = V (Proc.devRef .tc main_arg7) := by
  simp only [ops, after_append, ops_part0, ops_part1]
  after_results_simp

set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation determines what it writes (none allocates). -/
theorem ops_fresh : ∀ op ∈ (ops : List (HloOp τ sig (Elt F))), op.fresh = ∅ := fun op h => by
  simp only [ops, List.mem_append] at h
  rcases h with h | h
  exacts [List.forall_iff_forall_mem.mp ops_part0_fresh op h, List.forall_iff_forall_mem.mp ops_part1_fresh op h]

/-- On every device, for any float values, from any memory with zero counters: every weakly fair execution of the
    reference's @main terminates with the result buffer at the staged reference of the operands' launch contents,
    and the operands unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v84)
        = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v84).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_seq scopedRefs_eq scopedSems_eq defs main (fun _ => ops) main_eq (fun _ => ops_sub) m ρ (fun _ => ops_fresh))

end Cert.ReferenceIdeal.RefRun

end
-- ==== Proof.lean ====
/-
  The kernel — two graph-convolution layers whose dense projections run as row-tiled matrix products on the
  TensorCore, a readout that sums every graph's 128 consecutive nodes and scales by 2^-7, and two small dense
  layers — computes, on the extended reals, the same function of its arguments as the reference.
  Both programs apply the same host gathers, edge weights and scatter-adds with the same clamped degrees; they differ
  only in three places, each an identity on the extended reals: a product of a block of rows by the whole weight
  matrix is that block of the whole product (the same sum over the contracted axis, entry by entry); the sum over
  the 128 rows of a graph is the scatter-add by the graph number n / 128; and dividing by 128 is multiplying by the
  exact dyadic 2^-7, at infinities too. No finiteness of the inputs is needed.
  The frames of the two kernel programs are the generated ones; the reference's frame is its run with the result
  dropped; the ideal pass rewrote nothing, so the idealization's conjunct is trivial.
-/
import proofs.«115493_j8117488190078_1_alg».proof.Defs
import proofs.«115493_j8117488190078_1_alg».proof.Proof.Gen.Kernel
import proofs.«115493_j8117488190078_1_alg».proof.Proof.Gen.Kernel.Skeleton
import proofs.«115493_j8117488190078_1_alg».proof.Proof.Gen.Kernel.Launch
import proofs.«115493_j8117488190078_1_alg».proof.Proof.Gen.Kernel.Points
import proofs.«115493_j8117488190078_1_alg».proof.Proof.Gen.Kernel.Frame
import proofs.«115493_j8117488190078_1_alg».proof.Proof.Gen.KernelIdeal
import proofs.«115493_j8117488190078_1_alg».proof.Proof.Gen.KernelIdeal.Skeleton
import proofs.«115493_j8117488190078_1_alg».proof.Proof.Gen.KernelIdeal.Launch
import proofs.«115493_j8117488190078_1_alg».proof.Proof.Gen.KernelIdeal.Points
import proofs.«115493_j8117488190078_1_alg».proof.Proof.Gen.KernelIdeal.Frame
import proofs.«115493_j8117488190078_1_alg».proof.Proof.Gen.ReferenceIdeal
import proofs.«115493_j8117488190078_1_alg».proof.Proof.Gen.Pre_finite_inputs
import proofs.«115493_j8117488190078_1_alg».proof.Proof.KRun
import proofs.«115493_j8117488190078_1_alg».proof.Proof.KChain
import proofs.«115493_j8117488190078_1_alg».proof.Proof.RefRun
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the reference's function of the arguments in their result arrays. -/
theorem algebraic : Cert.algebraic_KernelIdeal_ReferenceIdeal := by
  intro m ρ m' ρ' _ hagree
  refine ⟨fun c => Cert.ReferenceIdeal.Stages.result (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KChain.result_value m ρ c), (h c).2⟩)
      (Cert.KernelIdeal.KRun.run_main (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
